-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16384 : Shape := ⟨2, ![1024, 16384]⟩
abbrev S16384x512 : Shape := ⟨2, ![16384, 512]⟩
abbrev S4096x16384 : Shape := ⟨2, ![4096, 16384]⟩
abbrev S4096 : Shape := ⟨1, ![4096]⟩
abbrev S512x512 : Shape := ⟨2, ![512, 512]⟩
abbrev S512 : Shape := ⟨1, ![512]⟩
abbrev S4096x512 : Shape := ⟨2, ![4096, 512]⟩
abbrev S_ : Shape := ⟨0, ![]⟩

class Facts : Prop where
  bcast_S_S1024x16384 : S_.BroadcastsInDim S1024x16384 (![] : Fin 0 → Fin S1024x16384.rank)
  reducesTo_S1024x16384_S_d0_1 : S1024x16384.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S4096x16384 : S_.BroadcastsInDim S4096x16384 (![] : Fin 0 → Fin S4096x16384.rank)
  reducesTo_S4096x16384_S_d0_1 : S4096x16384.ReducesTo [0, 1] S_
  bcast_S_S4096 : S_.BroadcastsInDim S4096 (![] : Fin 0 → Fin S4096.rank)
  reducesTo_S4096_S_d0 : S4096.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S4096x512 : S_.BroadcastsInDim S4096x512 (![] : Fin 0 → Fin S4096x512.rank)
  reducesTo_S4096x512_S_d0_1 : S4096x512.ReducesTo [0, 1] S_

variable [Facts]

def fn_part2 {F : FTy → Type} [FloatOps F] (main_arg7 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S4096x512 .f32) (main_arg7 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S4096x512 .f32 := Host.absf main_arg6
  let main_cst_10 : FVec F S_ .f32 := constant S_ .f32 0x7F800000#32
  let main_v30 : FVec F S4096x512 .f32 := broadcastInDim S4096x512 ![] bcast_S_S4096x512 main_cst_10
  let main_v31 : IVec S4096x512 1 := cmpf .olt main_v29 main_v30
  let main_c_11 : IVec S_ 1 := constantI S_ 1 1#1
  let main_v32 : IVec S_ 1 := (fun x v => Host.reduce IntOp.andi x v reducesTo_S4096x512_S_d0_1 h_S_) main_v31 main_c_11
  let main_v33 : IVec S_ 1 := andi main_v28 main_v32
  fn_part2 (F := F) main_arg7 main_v33

def fn {F : FTy → Type} [FloatOps F] (main_arg0 : FVec F S1024x16384 .f32) (main_arg1 : FVec F S16384x512 .f32) (main_arg2 : FVec F S4096x16384 .f32) (main_arg3 : FVec F S4096 .f32) (main_arg4 : FVec F S512x512 .f32) (main_arg5 : FVec F S512 .f32) (main_arg6 : FVec F S4096x512 .f32) (main_arg7 : FVec F S4096 .f32) : IVec S_ 1 :=
  let main_v0 : FVec F S1024x16384 .f32 := Host.absf main_arg0
  let main_cst : FVec F S_ .f32 := constant S_ .f32 0x7F800000#32
  let main_v1 : FVec F S1024x16384 .f32 := broadcastInDim S1024x16384 ![] bcast_S_S1024x16384 main_cst
  let main_v2 : IVec S1024x16384 1 := cmpf .olt main_v0 main_v1
  let main_c : IVec S_ 1 := constantI S_ 1 1#1
  let main_v3 : IVec S_ 1 := (fun x v => Host.reduce IntOp.andi x v reducesTo_S1024x16384_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S4096x16384 .f32 := Host.absf main_arg2
  let main_cst_2 : FVec F S_ .f32 := constant S_ .f32 0x7F800000#32
  let main_v10 : FVec F S4096x16384 .f32 := broadcastInDim S4096x16384 ![] bcast_S_S4096x16384 main_cst_2
  let main_v11 : IVec S4096x16384 1 := cmpf .olt main_v9 main_v10
  let main_c_3 : IVec S_ 1 := constantI S_ 1 1#1
  let main_v12 : IVec S_ 1 := (fun x v => Host.reduce IntOp.andi x v reducesTo_S4096x16384_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_v13 main_v16
-- ==== Kernel.lean ====
abbrev S1024x16384 : Shape := ⟨2, ![1024, 16384]⟩
abbrev S16384x512 : Shape := ⟨2, ![16384, 512]⟩
abbrev S4096x16384 : Shape := ⟨2, ![4096, 16384]⟩
abbrev S4096 : Shape := ⟨1, ![4096]⟩
abbrev S512x512 : Shape := ⟨2, ![512, 512]⟩
abbrev S512 : Shape := ⟨1, ![512]⟩
abbrev S4096x512 : Shape := ⟨2, ![4096, 512]⟩
abbrev S1024x4096 : Shape := ⟨2, ![1024, 4096]⟩
abbrev S256x2048 : Shape := ⟨2, ![256, 2048]⟩
abbrev S2048x512 : Shape := ⟨2, ![2048, 512]⟩
abbrev S256x4096 : Shape := ⟨2, ![256, 4096]⟩
abbrev S256x512 : Shape := ⟨2, ![256, 512]⟩
abbrev S1x512 : Shape := ⟨2, ![1, 512]⟩
abbrev S1x4096 : Shape := ⟨2, ![1, 4096]⟩
abbrev S1024 : Shape := ⟨1, ![1024]⟩
abbrev S256x1024 : Shape := ⟨2, ![256, 1024]⟩
abbrev S1x1024 : Shape := ⟨2, ![1, 1024]⟩

abbrev nBuf : Space → Nat
  | .hbm => 15
  | .vmem => 23
  | .smem => 0
  | _ => 0

abbrev bufTy : (tb : Table) → Fin (tcTables nBuf tb) → BufTy
  | .hbm, ⟨0, _⟩ => ⟨S1024x16384, .f32⟩
  | .hbm, ⟨1, _⟩ => ⟨S16384x512, .f32⟩
  | .hbm, ⟨2, _⟩ => ⟨S4096x16384, .f32⟩
  | .hbm, ⟨3, _⟩ => ⟨S4096, .f32⟩
  | .hbm, ⟨4, _⟩ => ⟨S512x512, .f32⟩
  | .hbm, ⟨5, _⟩ => ⟨S512, .f32⟩
  | .hbm, ⟨6, _⟩ => ⟨S4096x512, .f32⟩
  | .hbm, ⟨7, _⟩ => ⟨S4096, .f32⟩
  | .hbm, ⟨8, _⟩ => ⟨S1024x16384, .bf16⟩
  | .hbm, ⟨9, _⟩ => ⟨S16384x512, .bf16⟩
  | .hbm, ⟨10, _⟩ => ⟨S4096x16384, .bf16⟩
  | .hbm, ⟨11, _⟩ => ⟨S512x512, .bf16⟩
  | .hbm, ⟨12, _⟩ => ⟨S4096x512, .bf16⟩
  | .hbm, ⟨13, _⟩ => ⟨S1024x4096, .f32⟩
  | .hbm, ⟨14, _⟩ => ⟨S1024x4096, .f32⟩
  | .local _ .vmem, ⟨0, _⟩ => ⟨S256x2048, .bf16⟩
  | .local _ .vmem, ⟨1, _⟩ => ⟨S256x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512, .f32⟩
  | .local _ .vmem, ⟨6, _⟩ => ⟨S4096x512, .bf16⟩
  | .local _ .vmem, ⟨7, _⟩ => ⟨S4096, .f32⟩
  | .local _ .vmem, ⟨8, _⟩ => ⟨S256x4096, .f32⟩
  | .local _ .vmem, ⟨9, _⟩ => ⟨S256x4096, .f32⟩
  | .local _ .vmem, ⟨10, _⟩ => ⟨S256x512, .f32⟩
  | .local _ .vmem, ⟨11, _⟩ => ⟨S256x512, .f32⟩
  | .local _ .vmem, ⟨12, _⟩ => ⟨S256x4096, .bf16⟩
  | .local _ .vmem, ⟨13, _⟩ => ⟨S256x4096, .bf16⟩
  | .local _ .vmem, ⟨14, _⟩ => ⟨S1024x4096, .bf16⟩
  | .local _ .vmem, ⟨15, _⟩ => ⟨S1024x4096, .bf16⟩
  | .local _ .vmem, ⟨16, _⟩ => ⟨S1024, .f32⟩
  | .local _ .vmem, ⟨17, _⟩ => ⟨S1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | _, _ => ⟨S1024x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4096x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  shapeCasts_S256x4096_S256x4096 : S256x4096.ShapeCasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  dot_S256x2048_S2048x512_S256x512_1_0_0_1_n_n_wf : DotDims.WF S256x2048 S2048x512 S256x512 [1] [0] [0] [1] [] []
  dot_S256x512_S512x512_S256x512_1_1_0_0_n_n_wf : DotDims.WF S256x512 S512x512 S256x512 [1] [1] [0] [0] [] []
  dot_S256x512_S4096x512_S256x4096_1_1_0_0_n_n_wf : DotDims.WF S256x512 S4096x512 S256x4096 [1] [1] [0] [0] [] []
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S1024x16384.size a
  hwx0_0 : ∀ i : grid0.Coords, EltTy.bits .bf16 = 32 ∨ (Rect.block (s := S1024x16384) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S16384x512.size a
  hwx0_1 : ∀ i : grid0.Coords, EltTy.bits .bf16 = 32 ∨ (Rect.block (s := S16384x512) S2048x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x512.size a ≤ S4096x512.size a
  hwx0_4 : ∀ i : grid0.Coords, EltTy.bits .bf16 = 32 ∨ (Rect.block (s := S4096x512) S4096x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S4096.size a
  hwx0_5 : ∀ i : grid0.Coords, EltTy.bits .f32 = 32 ∨ (Rect.block (s := S4096) S4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x4096.size a ≤ S1024x4096.size a
  hwx0_6 : ∀ i : grid0.Coords, EltTy.bits .f32 = 32 ∨ (Rect.block (s := S1024x4096) S256x4096.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S1024x16384.size a
  hwx1_0 : ∀ i : grid1.Coords, EltTy.bits .bf16 = 32 ∨ (Rect.block (s := S1024x16384) S256x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S4096x16384.size a
  hwx1_1 : ∀ i : grid1.Coords, EltTy.bits .bf16 = 32 ∨ (Rect.block (s := S4096x16384) S1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S4096.size a
  hwx1_2 : ∀ i : grid1.Coords, EltTy.bits .f32 = 32 ∨ (Rect.block (s := S4096) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S1024x4096.size a
  hwx1_3 : ∀ i : grid1.Coords, EltTy.bits .f32 = 32 ∨ (Rect.block (s := S1024x4096) S256x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1024.size a ≤ S1024x4096.size a
  hwx1_4 : ∀ i : grid1.Coords, EltTy.bits .f32 = 32 ∨ (Rect.block (s := S1024x4096) S256x1024.size (cc1_transform_4 i) (hinb1_4 i)).WholeWords (EltTy.packing .f32)

variable [Facts₀]

def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S256x512_S512x512_S256x512_1_1_0_0_n_n : DotDims S256x512 S512x512 S256x512 where
  lhsContracting := [1]
  rhsContracting := [1]
  lhsNonContracting := [0]
  rhsNonContracting := [0]
  lhsBatch := []
  rhsBatch := []
  wf := dot_S256x512_S512x512_S256x512_1_1_0_0_n_n_wf
def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf
def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S4096x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S256x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S256x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S256x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S1024x16384 : Shape := ⟨2, ![1024, 16384]⟩
abbrev S16384x512 : Shape := ⟨2, ![16384, 512]⟩
abbrev S4096x16384 : Shape := ⟨2, ![4096, 16384]⟩
abbrev S4096 : Shape := ⟨1, ![4096]⟩
abbrev S512x512 : Shape := ⟨2, ![512, 512]⟩
abbrev S512 : Shape := ⟨1, ![512]⟩
abbrev S4096x512 : Shape := ⟨2, ![4096, 512]⟩
abbrev S1024x512 : Shape := ⟨2, ![1024, 512]⟩
abbrev S_ : Shape := ⟨0, ![]⟩
abbrev S1x512 : Shape := ⟨2, ![1, 512]⟩
abbrev S512x4096 : Shape := ⟨2, ![512, 4096]⟩
abbrev S1024x4096 : Shape := ⟨2, ![1024, 4096]⟩
abbrev S1x4096 : Shape := ⟨2, ![1, 4096]⟩
abbrev S16384x4096 : Shape := ⟨2, ![16384, 4096]⟩

abbrev nBuf : Space → Nat
  | .hbm => 36
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S16384x512, .f32⟩
  | .hbm, ⟨2, _⟩ => ⟨S4096x16384, .f32⟩
  | .hbm, ⟨3, _⟩ => ⟨S4096, .f32⟩
  | .hbm, ⟨4, _⟩ => ⟨S512x512, .f32⟩
  | .hbm, ⟨5, _⟩ => ⟨S512, .f32⟩
  | .hbm, ⟨6, _⟩ => ⟨S4096x512, .f32⟩
  | .hbm, ⟨7, _⟩ => ⟨S4096, .f32⟩
  | .hbm, ⟨8, _⟩ => ⟨S1024x512, .f32⟩
  | .hbm, ⟨9, _⟩ => ⟨S1024x16384, .f32⟩
  | .hbm, ⟨10, _⟩ => ⟨S16384x512, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S512x512, .f32⟩
  | .hbm, ⟨18, _⟩ => ⟨S1024x512, .f32⟩
  | .hbm, ⟨19, _⟩ => ⟨S1x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S512x4096, .f32⟩
  | .hbm, ⟨26, _⟩ => ⟨S1024x4096, .f32⟩
  | .hbm, ⟨27, _⟩ => ⟨S1x4096, .f32⟩
  | .hbm, ⟨28, _⟩ => ⟨S1024x4096, .f32⟩
  | .hbm, ⟨29, _⟩ => ⟨S1024x4096, .f32⟩
  | .hbm, ⟨30, _⟩ => ⟨S16384x4096, .f32⟩
  | .hbm, ⟨31, _⟩ => ⟨S1024x4096, .f32⟩
  | .hbm, ⟨32, _⟩ => ⟨S1x4096, .f32⟩
  | .hbm, ⟨33, _⟩ => ⟨S1024x4096, .f32⟩
  | .hbm, ⟨34, _⟩ => ⟨S1024x4096, .f32⟩
  | .hbm, ⟨35, _⟩ => ⟨S1024x4096, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S_S1024x512 : S_.BroadcastsInDim S1024x512 (![] : Fin 0 → Fin S1024x512.rank)
  transposes_S512x512_S512x512_1_0 : S512x512.Transposes [1, 0] S512x512
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  transposes_S4096x512_S512x4096_1_0 : S4096x512.Transposes [1, 0] S512x4096
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  transposes_S4096x16384_S16384x4096_1_0 : S4096x16384.Transposes [1, 0] S16384x4096
  dot_S1024x16384_S16384x512_S1024x512_1_0_0_1_n_n_wf : DotDims.WF S1024x16384 S16384x512 S1024x512 [1] [0] [0] [1] [] []
  dot_S1024x512_S512x512_S1024x512_1_0_0_1_n_n_wf : DotDims.WF S1024x512 S512x512 S1024x512 [1] [0] [0] [1] [] []
  dot_S1024x512_S512x4096_S1024x4096_1_0_0_1_n_n_wf : DotDims.WF S1024x512 S512x4096 S1024x4096 [1] [0] [0] [1] [] []
  dot_S1024x16384_S16384x4096_S1024x4096_1_0_0_1_n_n_wf : DotDims.WF S1024x16384 S16384x4096 S1024x4096 [1] [0] [0] [1] [] []

variable [Facts₀]

def dot_S1024x16384_S16384x512_S1024x512_1_0_0_1_n_n : DotDims S1024x16384 S16384x512 S1024x512 where
  lhsContracting := [1]
  rhsContracting := [0]
  lhsNonContracting := [0]
  rhsNonContracting := [1]
  lhsBatch := []
  rhsBatch := []
  wf := dot_S1024x16384_S16384x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x4096_S1024x4096_1_0_0_1_n_n : DotDims S1024x512 S512x4096 S1024x4096 where
  lhsContracting := [1]
  rhsContracting := [0]
  lhsNonContracting := [0]
  rhsNonContracting := [1]
  lhsBatch := []
  rhsBatch := []
  wf := dot_S1024x512_S512x4096_S1024x4096_1_0_0_1_n_n_wf
def dot_S1024x16384_S16384x4096_S1024x4096_1_0_0_1_n_n : DotDims S1024x16384 S16384x4096 S1024x4096 where
  lhsContracting := [1]
  rhsContracting := [0]
  lhsNonContracting := [0]
  rhsNonContracting := [1]
  lhsBatch := []
  rhsBatch := []
  wf := dot_S1024x16384_S16384x4096_S1024x4096_1_0_0_1_n_n_wf

class Facts : Prop extends Facts₀ where

variable [Facts]
-- ==== Proof.K.Body0.lean ====
import proofs.«126562_j4071628997276_1_alg».proof.Proof.Gen.Kernel.Launch
import proofs.«126562_j4071628997276_1_alg».proof.Proof.Gen.Kernel.Skeleton
import proofs.«126562_j4071628997276_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

/-!
  # The first kernel region: the pairwise-interaction term and its two-layer perceptron

  Its grid is 4 × 8, the second coordinate `n = t mod 8` running fastest over eight blocks of 2048 features. The body
  keeps two scratch accumulators of shape 256 × 512: the features' block times the embeddings' block, and the same
  with both factors squared entry by entry. At `n = 0` both are reset to zero; at every point the two products are
  added; at `n = 7` the output block (256 × 4096) is written from the two accumulators: half of (square of the first
  less the second), through the first layer with its bias, rectified, through the second layer with its bias. A point
  is in one of three cases (first, middle, last of its run of eight); what the accumulators hold after a point is a
  recursion on the point (`acc0a`, `acc0b`), and the region's invariant carries both from a point to the next.
-/

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a rectangle that is the whole buffer are all zero. -/
theorem off2' : (![0, 0] : Fin 2 → Nat) = fun _ => 0 := by funext a; fin_cases a <;> rfl
theorem off1' : (![0] : Fin 1 → Nat) = fun _ => 0 := by funext a; fin_cases a; rfl

/-! ## The body's two branch conditions, over the grid -/

/-- `n = 0`: the accumulators are reset. -/
abbrev cond0_0 (i : grid0.Coords) : Prop := (Scalar.cmpi .ne (Scalar.extui (Scalar.cmpi .eq (BitVec.ofNat 32 (i 1).val) 0#32)) 0#32) = 1#1
/-- `n = 7`: the output block is written. -/
abbrev cond0_1 (i : grid0.Coords) : Prop := k0_cond2 i = 1#1
theorem hcond0_0 : ∀ t : Fin cfg0.N, cond0_0 (grid0.coords t) ↔ t.val % 8 = 0 :=
  (by decide +kernel : ∀ t : Fin grid0.N, cond0_0 (grid0.coords t) ↔ t.val % 8 = 0)
theorem hcond0_1 : ∀ t : Fin cfg0.N, cond0_1 (grid0.coords t) ↔ t.val % 8 = 7 :=
  (by decide +kernel : ∀ t : Fin grid0.N, cond0_1 (grid0.coords t) ↔ t.val % 8 = 7)

/-- The inputs are never idle; the output is idle, and not written back, exactly off the last point of a run. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-! ## The body on any whole memrefs, case by case -/

set_option maxHeartbeats 2000000 in
/-- First point of a run: both accumulators zeroed, then each increased by its product. -/
theorem kernel0_first (c : Dev nD) (E : Set ℕ) (i : grid0.Coords)
    (arg2 : Memref sig .tc .vmem S256x2048 .bf16) (harg2 : arg2.IsWhole) (arg3 : Memref sig .tc .vmem S2048x512 .bf16) (harg3 : arg3.IsWhole)
    (arg4 : Memref sig .tc .vmem S512x512 .bf16) (harg4 : arg4.IsWhole) (arg5 : Memref sig .tc .vmem S512 .f32) (harg5 : arg5.IsWhole)
    (arg6 : Memref sig .tc .vmem S4096x512 .bf16) (harg6 : arg6.IsWhole) (arg7 : Memref sig .tc .vmem S4096 .f32) (harg7 : arg7.IsWhole)
    (arg8 : Memref sig .tc .vmem S256x4096 .f32) (harg8 : arg8.IsWhole) (arg9 : Memref sig .tc .vmem S256x512 .f32) (harg9 : arg9.IsWhole)
    (arg10 : Memref sig .tc .vmem S256x512 .f32) (harg10 : arg10.IsWhole)
    (hc0 : cond0_0 i) (hc1 : ¬ cond0_1 i)
    (x0 : Vec F S256x2048 .bf16) (x1 : Vec F S2048x512 .bf16) (K : PUnit → sProp 𝕄) :
    iprop(owns (c : Thread nD τ) arg2 fullShare x0 ∗ owns (c : Thread nD τ) arg3 fullShare x1 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg9 fullShare (k0_pay5 x0 x1 k0_pay1) ∗ owns (c : Thread nD τ) arg10 fullShare (k0_pay6 x0 x1 k0_pay2)) -∗ K ⟨⟩))
      ⊢ wp frame (wpE (defs₀ (F := F)) Variants.none c none) E (cc0__fm_mlp_kernel i arg2 harg2 arg3 harg3 arg4 harg4 arg5 harg5 arg6 harg6 arg7 harg7 arg8 harg8 arg9 harg9 arg10 harg10) K := by
  simp only [cc0__fm_mlp_kernel_eq_skeleton]; unfold cc0__fm_mlp_kernel_skel
  unfold owns
  iintro ⟨⟨%f0, %hf0, H0⟩, ⟨%f1, %hf1, H1⟩, ⟨%da, %fa, -, HA⟩, ⟨%db, %fb, -, HB⟩, Hk⟩
  subst hf0; subst hf1
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [HA]
  · iexists _; isplitr
    swap; · iexact HA
    ipureintro
    sl_unfold_words
    rw [View.read_writes_eq_canon _ _ _ (View.cover_of_tiled _ S256x512.size (by rfl)), View.canon_cons_unit_zero off2']
    simp only [View.readAt_eq_ld, View.ld_unit_zero (S := S256x2048) off2', View.ld_unit_zero (S := S2048x512) off2', View.ld_unit_zero (S := S256x512) off2', View.ld_unit_zero (S := S512x512) off2', View.ld_unit_zero (S := S512) off1', View.ld_unit_zero (S := S4096x512) off2', View.ld_unit_zero (S := S4096) off1', View.ld_unit_zero (S := S256x4096) off2', View.readCov_unit_zero (S := S256x512) _ off2']
  iexists _; isplitr
  swap; · iexact HB
  ipureintro
  sl_unfold_words
  rw [View.read_writes_eq_canon _ _ _ (View.cover_of_tiled _ S256x512.size (by rfl)), View.canon_cons_unit_zero off2']
  simp only [View.readAt_eq_ld, View.ld_unit_zero (S := S256x2048) off2', View.ld_unit_zero (S := S2048x512) off2', View.ld_unit_zero (S := S256x512) off2', View.ld_unit_zero (S := S512x512) off2', View.ld_unit_zero (S := S512) off1', View.ld_unit_zero (S := S4096x512) off2', View.ld_unit_zero (S := S4096) off1', View.ld_unit_zero (S := S256x4096) off2', View.readCov_unit_zero (S := S256x512) _ off2']

set_option maxHeartbeats 2000000 in
/-- A middle point: each accumulator increased by its product. -/
theorem kernel0_mid (c : Dev nD) (E : Set ℕ) (i : grid0.Coords)
    (arg2 : Memref sig .tc .vmem S256x2048 .bf16) (harg2 : arg2.IsWhole) (arg3 : Memref sig .tc .vmem S2048x512 .bf16) (harg3 : arg3.IsWhole)
    (arg4 : Memref sig .tc .vmem S512x512 .bf16) (harg4 : arg4.IsWhole) (arg5 : Memref sig .tc .vmem S512 .f32) (harg5 : arg5.IsWhole)
    (arg6 : Memref sig .tc .vmem S4096x512 .bf16) (harg6 : arg6.IsWhole) (arg7 : Memref sig .tc .vmem S4096 .f32) (harg7 : arg7.IsWhole)
    (arg8 : Memref sig .tc .vmem S256x4096 .f32) (harg8 : arg8.IsWhole) (arg9 : Memref sig .tc .vmem S256x512 .f32) (harg9 : arg9.IsWhole)
    (arg10 : Memref sig .tc .vmem S256x512 .f32) (harg10 : arg10.IsWhole)
    (hc0 : ¬ cond0_0 i) (hc1 : ¬ cond0_1 i)
    (x0 : Vec F S256x2048 .bf16) (x1 : Vec F S2048x512 .bf16) (sa sb : Vec F S256x512 .f32) (K : PUnit → sProp 𝕄) :
    iprop(owns (c : Thread nD τ) arg2 fullShare x0 ∗ owns (c : Thread nD τ) arg3 fullShare x1 ∗ owns (c : Thread nD τ) arg9 fullShare sa ∗ owns (c : Thread nD τ) arg10 fullShare sb
        ∗ (iprop(owns (c : Thread nD τ) arg2 fullShare x0 ∗ owns (c : Thread nD τ) arg3 fullShare x1 ∗ owns (c : Thread nD τ) arg9 fullShare (k0_pay5 x0 x1 sa) ∗ owns (c : Thread nD τ) arg10 fullShare (k0_pay6 x0 x1 sb)) -∗ K ⟨⟩))
      ⊢ wp frame (wpE (defs₀ (F := F)) Variants.none c none) E (cc0__fm_mlp_kernel i arg2 harg2 arg3 harg3 arg4 harg4 arg5 harg5 arg6 harg6 arg7 harg7 arg8 harg8 arg9 harg9 arg10 harg10) K := by
  simp only [cc0__fm_mlp_kernel_eq_skeleton]; unfold cc0__fm_mlp_kernel_skel
  unfold owns
  iintro ⟨⟨%f0, %hf0, H0⟩, ⟨%f1, %hf1, H1⟩, ⟨%fa, %hfa, HA⟩, ⟨%fb, %hfb, HB⟩, Hk⟩
  subst hf0; subst hf1; subst hfa; subst hfb
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [HA]
  · iexists _; isplitr
    swap; · iexact HA
    ipureintro
    sl_unfold_words
    rw [View.read_writes_eq_canon _ _ _ (View.cover_of_tiled _ S256x512.size (by rfl)), View.canon_unit_zero off2']
    simp only [View.readAt_eq_ld, View.ld_unit_zero (S := S256x2048) off2', View.ld_unit_zero (S := S2048x512) off2', View.ld_unit_zero (S := S256x512) off2', View.ld_unit_zero (S := S512x512) off2', View.ld_unit_zero (S := S512) off1', View.ld_unit_zero (S := S4096x512) off2', View.ld_unit_zero (S := S4096) off1', View.ld_unit_zero (S := S256x4096) off2', View.readCov_unit_zero (S := S256x512) _ off2']
  iexists _; isplitr
  swap; · iexact HB
  ipureintro
  sl_unfold_words
  rw [View.read_writes_eq_canon _ _ _ (View.cover_of_tiled _ S256x512.size (by rfl)), View.canon_unit_zero off2']
  simp only [View.readAt_eq_ld, View.ld_unit_zero (S := S256x2048) off2', View.ld_unit_zero (S := S2048x512) off2', View.ld_unit_zero (S := S256x512) off2', View.ld_unit_zero (S := S512x512) off2', View.ld_unit_zero (S := S512) off1', View.ld_unit_zero (S := S4096x512) off2', View.ld_unit_zero (S := S4096) off1', View.ld_unit_zero (S := S256x4096) off2', View.readCov_unit_zero (S := S256x512) _ off2']

set_option maxHeartbeats 4000000 in
/-- Last point of a run: each accumulator increased by its product, then the output block written from both. -/
theorem kernel0_last (c : Dev nD) (E : Set ℕ) (i : grid0.Coords)
    (arg2 : Memref sig .tc .vmem S256x2048 .bf16) (harg2 : arg2.IsWhole) (arg3 : Memref sig .tc .vmem S2048x512 .bf16) (harg3 : arg3.IsWhole)
    (arg4 : Memref sig .tc .vmem S512x512 .bf16) (harg4 : arg4.IsWhole) (arg5 : Memref sig .tc .vmem S512 .f32) (harg5 : arg5.IsWhole)
    (arg6 : Memref sig .tc .vmem S4096x512 .bf16) (harg6 : arg6.IsWhole) (arg7 : Memref sig .tc .vmem S4096 .f32) (harg7 : arg7.IsWhole)
    (arg8 : Memref sig .tc .vmem S256x4096 .f32) (harg8 : arg8.IsWhole) (arg9 : Memref sig .tc .vmem S256x512 .f32) (harg9 : arg9.IsWhole)
    (arg10 : Memref sig .tc .vmem S256x512 .f32) (harg10 : arg10.IsWhole)
    (hc0 : ¬ cond0_0 i) (hc1 : cond0_1 i)
    (x0 : Vec F S256x2048 .bf16) (x1 : Vec F S2048x512 .bf16) (x2 : Vec F S512x512 .bf16) (x3 : Vec F S512 .f32)
    (x4 : Vec F S4096x512 .bf16) (x5 : Vec F S4096 .f32) (sa sb : Vec F S256x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare sa ∗ owns (c : Thread nD τ) arg10 fullShare sb
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k0_pay7 (k0_pay5 x0 x1 sa) (k0_pay6 x0 x1 sb) x2 x3 x4 x5) ∗ owns (c : Thread nD τ) arg9 fullShare (k0_pay5 x0 x1 sa) ∗ owns (c : Thread nD τ) arg10 fullShare (k0_pay6 x0 x1 sb)) -∗ K ⟨⟩))
      ⊢ wp frame (wpE (defs₀ (F := F)) Variants.none c none) E (cc0__fm_mlp_kernel i arg2 harg2 arg3 harg3 arg4 harg4 arg5 harg5 arg6 harg6 arg7 harg7 arg8 harg8 arg9 harg9 arg10 harg10) K := by
  simp only [cc0__fm_mlp_kernel_eq_skeleton]; unfold cc0__fm_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d, %fo, -, HO⟩, ⟨%fa, %hfa, HA⟩, ⟨%fb, %hfb, HB⟩, Hk⟩
  subst hf0; subst hf1; subst hf2; subst hf3; subst hf4; subst hf5; subst hfa; subst hfb
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [HO]
  · iexists _; isplitr
    swap; · iexact HO
    ipureintro
    sl_unfold_words
    rw [View.read_writes_eq_canon _ _ _ (View.cover_of_tiled _ S256x4096.size (by rfl)), View.canon_unit_zero off2']
    simp only [View.readAt_eq_ld, View.ld_unit_zero (S := S256x2048) off2', View.ld_unit_zero (S := S2048x512) off2', View.ld_unit_zero (S := S256x512) off2', View.ld_unit_zero (S := S512x512) off2', View.ld_unit_zero (S := S512) off1', View.ld_unit_zero (S := S4096x512) off2', View.ld_unit_zero (S := S4096) off1', View.ld_unit_zero (S := S256x4096) off2', View.readCov_unit_zero (S := S256x512) _ off2']
  isplitl [HA]
  · iexists _; isplitr
    swap; · iexact HA
    ipureintro
    sl_unfold_words
    rw [View.read_writes_eq_canon _ _ _ (View.cover_of_tiled _ S256x512.size (by rfl)), View.canon_unit_zero off2']
    simp only [View.readAt_eq_ld, View.ld_unit_zero (S := S256x2048) off2', View.ld_unit_zero (S := S2048x512) off2', View.ld_unit_zero (S := S256x512) off2', View.ld_unit_zero (S := S512x512) off2', View.ld_unit_zero (S := S512) off1', View.ld_unit_zero (S := S4096x512) off2', View.ld_unit_zero (S := S4096) off1', View.ld_unit_zero (S := S256x4096) off2', View.readCov_unit_zero (S := S256x512) _ off2']
  iexists _; isplitr
  swap; · iexact HB
  ipureintro
  sl_unfold_words
  rw [View.read_writes_eq_canon _ _ _ (View.cover_of_tiled _ S256x512.size (by rfl)), View.canon_unit_zero off2']
  simp only [View.readAt_eq_ld, View.ld_unit_zero (S := S256x2048) off2', View.ld_unit_zero (S := S2048x512) off2', View.ld_unit_zero (S := S256x512) off2', View.ld_unit_zero (S := S512x512) off2', View.ld_unit_zero (S := S512) off1', View.ld_unit_zero (S := S4096x512) off2', View.ld_unit_zero (S := S4096) off1', View.ld_unit_zero (S := S256x4096) off2', View.readCov_unit_zero (S := S256x512) _ off2']

/-! ## The staging memrefs at a point, and the two scratch accumulators -/

abbrev ms0_0 (t : Fin cfg0.N) : Memref sig .tc .vmem S256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x4096 .f32 := win0_6.stage (cfg0.slots t 6)
abbrev hs0_6 (t : Fin cfg0.N) : (ms0_6 t).IsWhole := hstage0_6 ((cfg0.slots t 6).cast nbuf0_6)
/-- The accumulator of the products, and the accumulator of the products of squares. -/
abbrev scM0a : Memref sig .tc .vmem S256x512 .f32 := Memref.whole cc0_scratch0
abbrev scM0b : Memref sig .tc .vmem S256x512 .f32 := Memref.whole cc0_scratch1

/-- The region's plain invariant — every scoped buffer that is no staging buffer at some contents, the generator
    register at some state — with the two accumulators split off the other scoped buffers. -/
theorem PhiA0_eq (c : Dev nD) :
    (Pipeline.ΦA spec0 c : sProp 𝕄)
      = iprop((((∃ d, owns (c : Thread nD τ) scM0a fullShare d) ∗ (∃ d, owns (c : Thread nD τ) scM0b fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA
  rw [Pipeline.scopedRest_split_of_list spec0 c [cc0_scratch0, cc0_scratch1] (by decide) (by decide)]
  rw [bigSepL_cons, bigSepL_singleton]
  simp only [scM0a, scM0b, owns_whole]; try rfl

section Region0
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved), for any proof data whose array is the entry contents and whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What the accumulators hold after each point -/

/-- The products' accumulator after point `n`: that point's product added to zero at the first point of a run of
    eight, to what the point before left otherwise. -/
def acc0a (c : Dev nD) : (n : ℕ) → n < cfg0.N → Vec F S256x512 .f32
  | 0, hn => k0_pay5 (iblk0 V c 0 ⟨0, hn⟩) (iblk0 V c 1 ⟨0, hn⟩) k0_pay1
  | n + 1, hn => k0_pay5 (iblk0 V c 0 ⟨n + 1, hn⟩) (iblk0 V c 1 ⟨n + 1, hn⟩) (if (n + 1) % 8 = 0 then k0_pay1 else acc0a c n (Nat.lt_of_succ_lt hn))

/-- The same for the products of squares. -/
def acc0b (c : Dev nD) : (n : ℕ) → n < cfg0.N → Vec F S256x512 .f32
  | 0, hn => k0_pay6 (iblk0 V c 0 ⟨0, hn⟩) (iblk0 V c 1 ⟨0, hn⟩) k0_pay2
  | n + 1, hn => k0_pay6 (iblk0 V c 0 ⟨n + 1, hn⟩) (iblk0 V c 1 ⟨n + 1, hn⟩) (if (n + 1) % 8 = 0 then k0_pay2 else acc0b c n (Nat.lt_of_succ_lt hn))

theorem acc0a_first (c : Dev nD) (t : Fin cfg0.N) (h : t.val % 8 = 0) :
    acc0a V c t.val t.isLt = k0_pay5 (iblk0 V c 0 t) (iblk0 V c 1 t) k0_pay1 := by
  obtain ⟨n, hn⟩ := t
  cases n with
  | zero => rfl
  | succ n => simp only [acc0a]; rw [if_pos h]

theorem acc0a_next (c : Dev nD) (t : Fin cfg0.N) (h : ¬t.val % 8 = 0) :
    acc0a V c t.val t.isLt = k0_pay5 (iblk0 V c 0 t) (iblk0 V c 1 t) (acc0a V c (t.val - 1) (Nat.lt_of_le_of_lt (Nat.sub_le _ _) t.isLt)) := by
  obtain ⟨n, hn⟩ := t
  cases n with
  | zero => exact absurd (Nat.zero_mod _) h
  | succ n => simp only [acc0a]; rw [if_neg h]; rfl

theorem acc0b_first (c : Dev nD) (t : Fin cfg0.N) (h : t.val % 8 = 0) :
    acc0b V c t.val t.isLt = k0_pay6 (iblk0 V c 0 t) (iblk0 V c 1 t) k0_pay2 := by
  obtain ⟨n, hn⟩ := t
  cases n with
  | zero => rfl
  | succ n => simp only [acc0b]; rw [if_pos h]

theorem acc0b_next (c : Dev nD) (t : Fin cfg0.N) (h : ¬t.val % 8 = 0) :
    acc0b V c t.val t.isLt = k0_pay6 (iblk0 V c 0 t) (iblk0 V c 1 t) (acc0b V c (t.val - 1) (Nat.lt_of_le_of_lt (Nat.sub_le _ _) t.isLt)) := by
  obtain ⟨n, hn⟩ := t
  cases n with
  | zero => exact absurd (Nat.zero_mod _) h
  | succ n => simp only [acc0b]; rw [if_neg h]; rfl

/-- The region's invariant before position `n`: the plain one before the first point; afterwards the two accumulators
    at what the point before left, the other scoped buffers at anything, the generator register at some state. -/
def PhiS0 (c : Dev nD) : (n : ℕ) → n ≤ cfg0.N → sProp 𝕄
  | 0, _ => Pipeline.ΦA spec0 c
  | n + 1, hn => iprop(((owns (c : Thread nD τ) scM0a fullShare (acc0a V c n hn) ∗ owns (c : Thread nD τ) scM0b fullShare (acc0b V c n hn))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(((owns (c : Thread nD τ) scM0a fullShare (acc0a V c n hn) ∗ owns (c : Thread nD τ) scM0b fullShare (acc0b V c n hn))
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(((owns (c : Thread nD τ) scM0a fullShare (acc0a V c (n - 1) (by omega)) ∗ owns (c : Thread nD τ) scM0b fullShare (acc0b V c (n - 1) (by omega)))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The proof data -/

/-- The arrays as the region finds them; after the body each input's buffer at its block and the output's at the
    perceptron of the two accumulators (read only where the point writes it); the invariant `PhiS0`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => k0_pay7 (acc0a V c t.val t.isLt) (acc0b V c t.val t.isLt) (iblk0 V c 2 t) (iblk0 V c 3 t) (iblk0 V c 4 t) (iblk0 V c 5 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = k0_pay7 (acc0a V c t.val t.isLt) (acc0b V c t.val t.isLt) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 6400000 in
/-- The body at any point. The inputs' memrefs hold their blocks; `t mod 8` says which case the point is in; the
    invariant hands the body the two accumulators (at anything at the very first point, at what the point before
    left afterwards) and takes them back at this point's values; off the last point of a run the output's buffer
    goes back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  have hN : t.val < 32 := lt_of_lt_of_eq t.isLt (show cfg0.N = 32 from N_0)
  by_cases h1 : t.val % 8 = 7
  · -- the last point of a run: both accumulators updated, the output written
    have h0 : ¬t.val % 8 = 0 := by omega
    have hz : t.val ≠ 0 := by omega
    rw [show (dat0 V c).leavesExact 6 t = owns (c : Thread nD τ) (ms0_6 t) fullShare ((dat0 V c).after 6 t) from by
      unfold Dat.leavesExact; rw [liveAt0_6 t ((hcond0_1 t).mpr h1)], after0_6]
    rw [acc0a_next V c t h0, acc0b_next V c t h0]
    rw [PhiS0_castSucc V c t, PhiS0_pos V c _ _ hz]
    iintro ⟨⟨⟨⟨HA, HB⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (kernel0_last c Set.univ (grid0.coords t) _ _ _ _ _ _ _ _ _ _ _ _ _ _ _ _ _ _ (fun h => h0 ((hcond0_0 t).mp h)) ((hcond0_1 t).mpr h1)
      (iblk0 V c 0 t) (iblk0 V c 1 t) (iblk0 V c 2 t) (iblk0 V c 3 t) (iblk0 V c 4 t) (iblk0 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HA]; · iexact HA
    isplitl [HB]; · iexact HB
    iintro ⟨H0, H1, H2, H3, H4, H5, H6, HA, HB⟩
    isplitl [HA HB Hr Hg]
    · isplitl [HA HB Hr]
      · isplitl [HA HB]
        · isplitl [HA]; · iexact HA
          iexact HB
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dat0 V c) 6 t (idleAt0_6 t (fun h => h1 ((hcond0_1 t).mp h))) (noFlush0_6 t (fun h => h1 ((hcond0_1 t).mp h)))]
    by_cases h0 : t.val % 8 = 0
    · -- the first point of a run: both accumulators reset, then updated
      rw [acc0a_first V c t h0, acc0b_first V c t h0]
      by_cases hz : t.val = 0
      · rw [PhiS0_castSucc V c t, PhiS0_zero V c _ _ hz, PhiA0_eq]
        iintro ⟨⟨⟨⟨⟨%da, HA⟩, ⟨%db, HB⟩⟩, Hr⟩, Hg⟩, Ho, ⟨%d0, H0⟩, ⟨%d1, H1⟩, ⟨%d2, H2⟩, ⟨%d3, H3⟩, ⟨%d4, H4⟩, ⟨%d5, H5⟩, ⟨%d6, H6⟩⟩
        iapply (kernel0_first c Set.univ (grid0.coords t) _ _ _ _ _ _ _ _ _ _ _ _ _ _ _ _ _ _ ((hcond0_0 t).mpr h0) (fun h => h1 ((hcond0_1 t).mp h))
          (iblk0 V c 0 t) (iblk0 V c 1 t) _)
        isplitl [H0]; · iexact H0
        isplitl [H1]; · iexact H1
        isplitl [HA]; · iexists _; iexact HA
        isplitl [HB]; · iexists _; iexact HB
        iintro ⟨H0, H1, HA, HB⟩
        isplitl [HA HB Hr Hg]
        · isplitl [HA HB Hr]
          · isplitl [HA HB]
            · isplitl [HA]; · iexact HA
              iexact HB
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS0_castSucc V c t, PhiS0_pos V c _ _ hz]
        iintro ⟨⟨⟨⟨HA, HB⟩, Hr⟩, Hg⟩, Ho, ⟨%d0, H0⟩, ⟨%d1, H1⟩, ⟨%d2, H2⟩, ⟨%d3, H3⟩, ⟨%d4, H4⟩, ⟨%d5, H5⟩, ⟨%d6, H6⟩⟩
        iapply (kernel0_first c Set.univ (grid0.coords t) _ _ _ _ _ _ _ _ _ _ _ _ _ _ _ _ _ _ ((hcond0_0 t).mpr h0) (fun h => h1 ((hcond0_1 t).mp h))
          (iblk0 V c 0 t) (iblk0 V c 1 t) _)
        isplitl [H0]; · iexact H0
        isplitl [H1]; · iexact H1
        isplitl [HA]; · iexists _; iexact HA
        isplitl [HB]; · iexists _; iexact HB
        iintro ⟨H0, H1, HA, HB⟩
        isplitl [HA HB Hr Hg]
        · isplitl [HA HB Hr]
          · isplitl [HA HB]
            · isplitl [HA]; · iexact HA
              iexact HB
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
    · -- a middle point: both accumulators updated
      have hz : t.val ≠ 0 := by omega
      rw [acc0a_next V c t h0, acc0b_next V c t h0]
      rw [PhiS0_castSucc V c t, PhiS0_pos V c _ _ hz]
      iintro ⟨⟨⟨⟨HA, HB⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (kernel0_mid c Set.univ (grid0.coords t) _ _ _ _ _ _ _ _ _ _ _ _ _ _ _ _ _ _ (fun h => h0 ((hcond0_0 t).mp h)) (fun h => h1 ((hcond0_1 t).mp h))
        (iblk0 V c 0 t) (iblk0 V c 1 t) _ _ _)
      isplitl [H0]; · iexact H0
      isplitl [H1]; · iexact H1
      isplitl [HA]; · iexact HA
      isplitl [HB]; · iexact HB
      iintro ⟨H0, H1, HA, HB⟩
      isplitl [HA HB Hr Hg]
      · isplitl [HA HB Hr]
        · isplitl [HA HB]
          · isplitl [HA]; · iexact HA
            iexact HB
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- and after the last point the invariant gives it back, the accumulators' values forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨⟨HA, HB⟩, Hr⟩, Hg⟩
  isplitl [HA HB Hr]
  · isplitl [HA HB]
    · isplitl [HA]; · iexists _; iexact HA
      iexists _; iexact HB
    iexact Hr
  iexact Hg

end Region0

end Cert.Kernel.Hand
end
-- ==== Proof.K.Body1.lean ====
import proofs.«126562_j4071628997276_1_alg».proof.Proof.Gen.Kernel.Launch
import proofs.«126562_j4071628997276_1_alg».proof.Proof.Gen.Kernel.Skeleton
import proofs.«126562_j4071628997276_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

/-!
  # The second kernel region: the linear layer, accumulated over four feature blocks, plus the interaction term

  Its grid is 4 × 4 × 4, the last coordinate `k = t mod 4` running fastest. The body keeps a scratch accumulator of
  shape 256 × 1024: at `k = 0` it is reset to zero; at every point the product of the current block of the features
  (256 × 4096) with the transposed block of the linear weights (1024 × 4096) is added to it; at `k = 3` the output
  block is written as accumulator + bias + the interaction block the first region left. So a point is in one of
  three cases (first, middle, last of its run of four), and what the scratch holds after a point is a recursion
  on the point (`acc1`). The region's invariant carries the scratch at that value from a point to the next.
-/

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a rectangle that is the whole buffer are all zero. -/
theorem off2 : (![0, 0] : Fin 2 → Nat) = fun _ => 0 := by funext a; fin_cases a <;> rfl
theorem off1 : (![0] : Fin 1 → Nat) = fun _ => 0 := by funext a; fin_cases a; rfl

/-! ## The body's two branch conditions, over the grid -/

/-- `k = 0`: the accumulator is reset. -/
abbrev cond1_0 (i : grid1.Coords) : Prop := (Scalar.cmpi .ne (Scalar.extui (Scalar.cmpi .eq (BitVec.ofNat 32 (i 2).val) 0#32)) 0#32) = 1#1
/-- `k = 3`: the output block is written. -/
abbrev cond1_1 (i : grid1.Coords) : Prop := k1_cond2 i = 1#1
theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 = 3 :=
  (by decide +kernel : ∀ t : Fin grid1.N, cond1_1 (grid1.coords t) ↔ t.val % 4 = 3)

/-- The inputs are never idle; the output is idle, and not written back, exactly off the last point of a run. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The body on any whole memrefs, case by case -/

set_option maxHeartbeats 1000000 in
theorem kernel1_first (c : Dev nD) (E : Set ℕ) (i : grid1.Coords)
    (arg3 : Memref sig .tc .vmem S256x4096 .bf16) (harg3 : arg3.IsWhole) (arg4 : Memref sig .tc .vmem S1024x4096 .bf16) (harg4 : arg4.IsWhole)
    (arg5 : Memref sig .tc .vmem S1024 .f32) (harg5 : arg5.IsWhole) (arg6 : Memref sig .tc .vmem S256x1024 .f32) (harg6 : arg6.IsWhole)
    (arg7 : Memref sig .tc .vmem S256x1024 .f32) (harg7 : arg7.IsWhole) (arg8 : Memref sig .tc .vmem S256x1024 .f32) (harg8 : arg8.IsWhole)
    (hc0 : cond1_0 i) (hc1 : ¬ cond1_1 i)
    (x0 : Vec F S256x4096 .bf16) (x1 : Vec F S1024x4096 .bf16) (K : PUnit → sProp 𝕄) :
    iprop(owns (c : Thread nD τ) arg3 fullShare x0 ∗ owns (c : Thread nD τ) arg4 fullShare x1 ∗ (∃ d, owns (c : Thread nD τ) arg8 fullShare d)
        ∗ (iprop(owns (c : Thread nD τ) arg3 fullShare x0 ∗ owns (c : Thread nD τ) arg4 fullShare x1 ∗ owns (c : Thread nD τ) arg8 fullShare (k1_pay2 k1_pay1 x0 x1)) -∗ K ⟨⟩))
      ⊢ wp frame (wpE (defs₀ (F := F)) Variants.none c none) E (cc1__linear_kernel i arg3 harg3 arg4 harg4 arg5 harg5 arg6 harg6 arg7 harg7 arg8 harg8) K := by
  simp only [cc1__linear_kernel_eq_skeleton]; unfold cc1__linear_kernel_skel
  unfold owns
  iintro ⟨⟨%f0, %hf0, H0⟩, ⟨%f1, %hf1, H1⟩, ⟨%d, %fs, -, HS⟩, Hk⟩
  subst hf0; subst hf1
  sl_exec (disch := first | exact hc0 | exact hc1)
  sl_step
  iapply Hk
  isplitl [H0]; · iexists _; isplitr; · ipureintro; rfl
                  iexact H0
  isplitl [H1]; · iexists _; isplitr; · ipureintro; rfl
                  iexact H1
  iexists _; isplitr
  swap; · iexact HS
  ipureintro
  sl_unfold_words
  rw [View.read_writes_eq_canon _ _ _ (View.cover_of_tiled _ S256x1024.size (by rfl)), View.canon_cons_unit_zero off2]
  simp only [View.readAt_eq_ld, View.ld_unit_zero (S := S256x1024) off2, View.ld_unit_zero (S := S256x4096) off2, View.ld_unit_zero (S := S1024x4096) off2, View.ld_unit_zero (S := S1024) off1, View.readCov_unit_zero (S := S256x1024) _ off2]

set_option maxHeartbeats 1000000 in
theorem kernel1_mid (c : Dev nD) (E : Set ℕ) (i : grid1.Coords)
    (arg3 : Memref sig .tc .vmem S256x4096 .bf16) (harg3 : arg3.IsWhole) (arg4 : Memref sig .tc .vmem S1024x4096 .bf16) (harg4 : arg4.IsWhole)
    (arg5 : Memref sig .tc .vmem S1024 .f32) (harg5 : arg5.IsWhole) (arg6 : Memref sig .tc .vmem S256x1024 .f32) (harg6 : arg6.IsWhole)
    (arg7 : Memref sig .tc .vmem S256x1024 .f32) (harg7 : arg7.IsWhole) (arg8 : Memref sig .tc .vmem S256x1024 .f32) (harg8 : arg8.IsWhole)
    (hc0 : ¬ cond1_0 i) (hc1 : ¬ cond1_1 i)
    (x0 : Vec F S256x4096 .bf16) (x1 : Vec F S1024x4096 .bf16) (s : Vec F S256x1024 .f32) (K : PUnit → sProp 𝕄) :
    iprop(owns (c : Thread nD τ) arg3 fullShare x0 ∗ owns (c : Thread nD τ) arg4 fullShare x1 ∗ owns (c : Thread nD τ) arg8 fullShare s
        ∗ (iprop(owns (c : Thread nD τ) arg3 fullShare x0 ∗ owns (c : Thread nD τ) arg4 fullShare x1 ∗ owns (c : Thread nD τ) arg8 fullShare (k1_pay2 s x0 x1)) -∗ K ⟨⟩))
      ⊢ wp frame (wpE (defs₀ (F := F)) Variants.none c none) E (cc1__linear_kernel i arg3 harg3 arg4 harg4 arg5 harg5 arg6 harg6 arg7 harg7 arg8 harg8) K := by
  simp only [cc1__linear_kernel_eq_skeleton]; unfold cc1__linear_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]; · iexists _; isplitr; · ipureintro; rfl
                  iexact H0
  isplitl [H1]; · iexists _; isplitr; · ipureintro; rfl
                  iexact H1
  iexists _; isplitr
  swap; · iexact HS
  ipureintro
  sl_unfold_words
  rw [View.read_writes_eq_canon _ _ _ (View.cover_of_tiled _ S256x1024.size (by rfl)), View.canon_unit_zero off2]
  simp only [View.readAt_eq_ld, View.ld_unit_zero (S := S256x1024) off2, View.ld_unit_zero (S := S256x4096) off2, View.ld_unit_zero (S := S1024x4096) off2, View.ld_unit_zero (S := S1024) off1, View.readCov_unit_zero (S := S256x1024) _ off2]

set_option maxHeartbeats 1000000 in
theorem kernel1_last (c : Dev nD) (E : Set ℕ) (i : grid1.Coords)
    (arg3 : Memref sig .tc .vmem S256x4096 .bf16) (harg3 : arg3.IsWhole) (arg4 : Memref sig .tc .vmem S1024x4096 .bf16) (harg4 : arg4.IsWhole)
    (arg5 : Memref sig .tc .vmem S1024 .f32) (harg5 : arg5.IsWhole) (arg6 : Memref sig .tc .vmem S256x1024 .f32) (harg6 : arg6.IsWhole)
    (arg7 : Memref sig .tc .vmem S256x1024 .f32) (harg7 : arg7.IsWhole) (arg8 : Memref sig .tc .vmem S256x1024 .f32) (harg8 : arg8.IsWhole)
    (hc0 : ¬ cond1_0 i) (hc1 : cond1_1 i)
    (x0 : Vec F S256x4096 .bf16) (x1 : Vec F S1024x4096 .bf16) (x2 : Vec F S1024 .f32) (x3 : Vec F S256x1024 .f32) (s : Vec F S256x1024 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ (∃ d, owns (c : Thread nD τ) arg7 fullShare d) ∗ owns (c : Thread nD τ) arg8 fullShare s
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (k1_pay3 (k1_pay2 s x0 x1) x2 x3) ∗ owns (c : Thread nD τ) arg8 fullShare (k1_pay2 s x0 x1)) -∗ K ⟨⟩))
      ⊢ wp frame (wpE (defs₀ (F := F)) Variants.none c none) E (cc1__linear_kernel i arg3 harg3 arg4 harg4 arg5 harg5 arg6 harg6 arg7 harg7 arg8 harg8) K := by
  simp only [cc1__linear_kernel_eq_skeleton]; unfold cc1__linear_kernel_skel
  unfold owns
  iintro ⟨⟨%f0, %hf0, H0⟩, ⟨%f1, %hf1, H1⟩, ⟨%f2, %hf2, H2⟩, ⟨%f3, %hf3, H3⟩, ⟨%d, %fo, -, HO⟩, ⟨%fs, %hfs, HS⟩, Hk⟩
  subst hf0; subst hf1; subst hf2; subst hf3; subst hfs
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [HO]
  · iexists _; isplitr
    swap; · iexact HO
    ipureintro
    sl_unfold_words
    rw [View.read_writes_eq_canon _ _ _ (View.cover_of_tiled _ S256x1024.size (by rfl)), View.canon_unit_zero off2]
    simp only [View.readAt_eq_ld, View.ld_unit_zero (S := S256x1024) off2, View.ld_unit_zero (S := S256x4096) off2, View.ld_unit_zero (S := S1024x4096) off2, View.ld_unit_zero (S := S1024) off1, View.readCov_unit_zero (S := S256x1024) _ off2]
  iexists _; isplitr
  swap; · iexact HS
  ipureintro
  sl_unfold_words
  rw [View.read_writes_eq_canon _ _ _ (View.cover_of_tiled _ S256x1024.size (by rfl)), View.canon_unit_zero off2]
  simp only [View.readAt_eq_ld, View.ld_unit_zero (S := S256x1024) off2, View.ld_unit_zero (S := S256x4096) off2, View.ld_unit_zero (S := S1024x4096) off2, View.ld_unit_zero (S := S1024) off1, View.readCov_unit_zero (S := S256x1024) _ off2]

/-! ## The staging memrefs at a point, and the scratch -/

abbrev ms1_0 (t : Fin cfg1.N) : Memref sig .tc .vmem S256x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x4096 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x1024 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1 : Memref sig .tc .vmem S256x1024 .f32 := Memref.whole cc1_scratch0

/-- The region's plain invariant — every scoped buffer that is no staging buffer at some contents, the generator
    register at some state — with the accumulator split off the other scoped buffers. -/
theorem PhiA1_eq (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [bigSepL_singleton, scM1, owns_whole]; try rfl

section Region1
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data whose array is the entry contents and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What the accumulator holds after each point -/

/-- After point `n`: the product of that point's blocks added to zero at the first point of a run of four, to what
    the point before left otherwise. -/
def acc1 (c : Dev nD) : (n : ℕ) → n < cfg1.N → Vec F S256x1024 .f32
  | 0, hn => k1_pay2 k1_pay1 (iblk1 V c 0 ⟨0, hn⟩) (iblk1 V c 1 ⟨0, hn⟩)
  | n + 1, hn => k1_pay2 (if (n + 1) % 4 = 0 then k1_pay1 else acc1 c n (Nat.lt_of_succ_lt hn)) (iblk1 V c 0 ⟨n + 1, hn⟩) (iblk1 V c 1 ⟨n + 1, hn⟩)

theorem acc1_first (c : Dev nD) (t : Fin cfg1.N) (h : t.val % 4 = 0) :
    acc1 V c t.val t.isLt = k1_pay2 k1_pay1 (iblk1 V c 0 t) (iblk1 V c 1 t) := by
  obtain ⟨n, hn⟩ := t
  cases n with
  | zero => rfl
  | succ n => simp only [acc1]; rw [if_pos h]

theorem acc1_next (c : Dev nD) (t : Fin cfg1.N) (h : ¬t.val % 4 = 0) :
    acc1 V c t.val t.isLt = k1_pay2 (acc1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => simp only [acc1]; rw [if_neg h]; rfl

/-- The region's invariant before position `n`: the plain one before the first point; afterwards the accumulator at
    what the point before left, the other scoped buffers at anything, the generator register at some state. -/
def PhiS1 (c : Dev nD) : (n : ℕ) → n ≤ cfg1.N → sProp 𝕄
  | 0, _ => Pipeline.ΦA spec1 c
  | n + 1, hn => iprop((owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop((owns (c : Thread nD τ) scM1 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The arrays as the region finds them; after the body each input's buffer at its block and the output's at
    accumulator + bias + interaction block (read only where the point writes it); the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (acc1 V c t.val t.isLt) (iblk1 V c 2 t) (iblk1 V c 3 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay3 (acc1 V c t.val t.isLt) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' memrefs hold their blocks; `t mod 4` says which case the point is in; the
    invariant hands the body the accumulator (at anything at the very first point, at what the point before left
    afterwards) and takes it back at this point's value; off the last point of a run the output's buffer goes back
    as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 64 := lt_of_lt_of_eq t.isLt (show cfg1.N = 64 from N_1)
  by_cases h1 : t.val % 4 = 3
  · -- the last point of a run: the accumulator updated, the output written
    have h0 : ¬t.val % 4 = 0 := by omega
    have hz : t.val ≠ 0 := by omega
    rw [show (dat1 V c).leavesExact 4 t = owns (c : Thread nD τ) (ms1_4 t) fullShare ((dat1 V c).after 4 t) from by
      unfold Dat.leavesExact; rw [liveAt1_4 t ((hcond1_1 t).mpr h1)], after1_4]
    rw [acc1_next V c t h0]
    rw [PhiS1_castSucc V c t, PhiS1_pos V c _ _ hz]
    iintro ⟨⟨⟨HS, Hr⟩, Hg⟩, Ho, ⟨%d0, H0⟩, ⟨%d1, H1⟩, ⟨%d2, H2⟩, ⟨%d3, H3⟩, ⟨%d4, H4⟩⟩
    iapply (kernel1_last c Set.univ (grid1.coords t) _ _ _ _ _ _ _ _ _ _ _ _ (fun h => h0 ((hcond1_0 t).mp h)) ((hcond1_1 t).mpr h1)
      (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    iexact H4
  · rw [Dat.leavesExact_idle (dat1 V c) 4 t (idleAt1_4 t (fun h => h1 ((hcond1_1 t).mp h))) (noFlush1_4 t (fun h => h1 ((hcond1_1 t).mp h)))]
    by_cases h0 : t.val % 4 = 0
    · -- the first point of a run: the accumulator reset, then updated
      rw [acc1_first V c t h0]
      by_cases hz : t.val = 0
      · rw [PhiS1_castSucc V c t, PhiS1_zero V c _ _ hz, PhiA1_eq]
        iintro ⟨⟨⟨⟨%ds, HS⟩, Hr⟩, Hg⟩, Ho, ⟨%d0, H0⟩, ⟨%d1, H1⟩, ⟨%d2, H2⟩, ⟨%d3, H3⟩, ⟨%d4, H4⟩⟩
        iapply (kernel1_first c Set.univ (grid1.coords t) _ _ _ _ _ _ _ _ _ _ _ _ ((hcond1_0 t).mpr h0) (fun h => h1 ((hcond1_1 t).mp h))
          (iblk1 V c 0 t) (iblk1 V c 1 t) _)
        isplitl [H0]; · iexact H0
        isplitl [H1]; · iexact H1
        isplitl [HS]; · iexists _; iexact HS
        iintro ⟨H0, H1, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HS, Hr⟩, Hg⟩, Ho, ⟨%d0, H0⟩, ⟨%d1, H1⟩, ⟨%d2, H2⟩, ⟨%d3, H3⟩, ⟨%d4, H4⟩⟩
        iapply (kernel1_first c Set.univ (grid1.coords t) _ _ _ _ _ _ _ _ _ _ _ _ ((hcond1_0 t).mpr h0) (fun h => h1 ((hcond1_1 t).mp h))
          (iblk1 V c 0 t) (iblk1 V c 1 t) _)
        isplitl [H0]; · iexact H0
        isplitl [H1]; · iexact H1
        isplitl [HS]; · iexists _; iexact HS
        iintro ⟨H0, H1, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        isplitl [H2]; · iexact H2
        isplitl [H3]; · iexact H3
        iexists _; iexact H4
    · -- a middle point: the accumulator updated
      have hz : t.val ≠ 0 := by omega
      rw [acc1_next V c t h0]
      rw [PhiS1_castSucc V c t, PhiS1_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply (kernel1_mid c Set.univ (grid1.coords t) _ _ _ _ _ _ _ _ _ _ _ _ (fun h => h0 ((hcond1_0 t).mp h)) (fun h => h1 ((hcond1_1 t).mp h))
        (iblk1 V c 0 t) (iblk1 V c 1 t) _ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- and after the last point the invariant gives it back, the accumulator's value forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, Hr⟩, Hg⟩
  isplitl [HS Hr]
  · isplitl [HS]; · iexists _; iexact HS
    iexact Hr
  iexact Hg

end Region1

end Cert.Kernel.Hand
end
-- ==== Proof.K.Run.lean ====
import proofs.«126562_j4071628997276_1_alg».proof.Proof.K.Body0
import proofs.«126562_j4071628997276_1_alg».proof.Proof.K.Body1
import proofs.«126562_j4071628997276_1_alg».proof.Proof.Gen.Kernel.Regions

/-!
  # The whole program: five host conversions, then the two kernel regions

  The buffer contents at each boundary are a fold from the launch memory: after the host stretch (each of the five
  large operands converted to the kernels' format); after the first region (its output array at what its write-backs
  leave, every other buffer as entered); after the second region (likewise). No item writes an argument array, so
  each argument walks back through the fold to its launch contents; the result array holds what the second region's
  write-backs leave. The run is the library's launch of a list of segments, each region a record of its layout, its
  body obligation and the four entailments around the thread state "every unscoped buffer at the boundary's contents,
  the generator register at some state, nothing owed".
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the five host conversions (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit, likewise (the second region is entered from `W2`: no host operation between). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

/-- `main_arg0` ends as launched: no host operation writes it and no region changes it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- `main_arg1` ends as launched: no host operation writes it and no region changes it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- `main_arg2` ends as launched: no host operation writes it and no region changes it. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- `main_arg3` ends as launched: no host operation writes it and no region changes it. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := (W3_arr m ρ c 2).trans (((dat1 (V2 m ρ) c).arrAt_in 2 rfl _).trans (A_eq1 (V2 m ρ) c 2))
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- `main_arg4` ends as launched: no host operation writes it and no region changes it. -/
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- `main_arg5` ends as launched: no host operation writes it and no region changes it. -/
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := (W2_arr m ρ c 3).trans (((dat0 (V1 m ρ) c).arrAt_in 3 rfl _).trans (A_eq0 (V1 m ρ) c 3))
    _ = W0 m ρ c (Proc.devRef .tc main_arg5) := StableHlo.after_of_writes_sub hostOps0 _ hostOps0_writes (by decide)
    _ = m ((c : Thread nD τ).loc main_arg5) := rfl

/-- `main_arg6` ends as launched: no host operation writes it and no region changes it. -/
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-- `main_arg7` ends as launched: no host operation writes it and no region changes it. -/
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := (W2_arr m ρ c 5).trans (((dat0 (V1 m ρ) c).arrAt_in 5 rfl _).trans (A_eq0 (V1 m ρ) c 5))
    _ = W0 m ρ c (Proc.devRef .tc main_arg7) := StableHlo.after_of_writes_sub hostOps0 _ hostOps0_writes (by decide)
    _ = m ((c : Thread nD τ).loc main_arg7) := rfl

/-- The result array after the run: what the second region's write-backs leave. -/
theorem W3_main_v6 (c : Dev nD) : W3 m ρ c (Proc.devRef .tc main_v6) = (dat1 (V2 m ρ) c).arrAt 4 cfg1.N := W3_arr m ρ c 4

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The host stretch as a segment over the unscoped references from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m ρ) R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at the contents before it, left with its
    arrays at what the write-backs leave and every other buffer as entered; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    refine .trans ?_ (hin0 (V1 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V1 m ρ) c).Φ (Fin.last cfg0.N) from rfl]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left with its
    arrays at what the write-backs leave and every other buffer as entered; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine .trans ?_ (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg0 m ρ), .region (reg0 m ρ), .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and in every final state each unscoped buffer holds the last boundary's contents: the library's launch over the
    three segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The run with its post read at the result and the arguments: the result array at what the second region's
    write-backs leave, every argument as launched. -/
theorem run_value : θ_run defs (onTc (τ := τ) (main (F := F))) ⟨m, fun _ => 0, ρ⟩ (fun r => ∀ c : Dev nD,
      r.2.mem ((c.tc : Thread nD τ).loc main_v6) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v6 (by decide))).trans (W3_main_v6 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c)⟩) (run_all m ρ)

/-- THE FRAME: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => (h c).2) (run_value m ρ)

end Cert.Kernel.Hand

end
-- ==== Proof.KI.Body0.lean ====
import proofs.«126562_j4071628997276_1_alg».proof.Proof.Gen.KernelIdeal.Launch
import proofs.«126562_j4071628997276_1_alg».proof.Proof.Gen.KernelIdeal.Skeleton
import proofs.«126562_j4071628997276_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

/-!
  # The first kernel region: the pairwise-interaction term and its two-layer perceptron

  Its grid is 4 × 8, the second coordinate `n = t mod 8` running fastest over eight blocks of 2048 features. The body
  keeps two scratch accumulators of shape 256 × 512: the features' block times the embeddings' block, and the same
  with both factors squared entry by entry. At `n = 0` both are reset to zero; at every point the two products are
  added; at `n = 7` the output block (256 × 4096) is written from the two accumulators: half of (square of the first
  less the second), through the first layer with its bias, rectified, through the second layer with its bias. A point
  is in one of three cases (first, middle, last of its run of eight); what the accumulators hold after a point is a
  recursion on the point (`acc0a`, `acc0b`), and the region's invariant carries both from a point to the next.
-/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a rectangle that is the whole buffer are all zero. -/
theorem off2' : (![0, 0] : Fin 2 → Nat) = fun _ => 0 := by funext a; fin_cases a <;> rfl
theorem off1' : (![0] : Fin 1 → Nat) = fun _ => 0 := by funext a; fin_cases a; rfl

/-! ## The body's two branch conditions, over the grid -/

/-- `n = 0`: the accumulators are reset. -/
abbrev cond0_0 (i : grid0.Coords) : Prop := (Scalar.cmpi .ne (Scalar.extui (Scalar.cmpi .eq (BitVec.ofNat 32 (i 1).val) 0#32)) 0#32) = 1#1
/-- `n = 7`: the output block is written. -/
abbrev cond0_1 (i : grid0.Coords) : Prop := k0_cond2 i = 1#1
theorem hcond0_0 : ∀ t : Fin cfg0.N, cond0_0 (grid0.coords t) ↔ t.val % 8 = 0 :=
  (by decide +kernel : ∀ t : Fin grid0.N, cond0_0 (grid0.coords t) ↔ t.val % 8 = 0)
theorem hcond0_1 : ∀ t : Fin cfg0.N, cond0_1 (grid0.coords t) ↔ t.val % 8 = 7 :=
  (by decide +kernel : ∀ t : Fin grid0.N, cond0_1 (grid0.coords t) ↔ t.val % 8 = 7)

/-- The inputs are never idle; the output is idle, and not written back, exactly off the last point of a run. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-! ## The body on any whole memrefs, case by case -/

set_option maxHeartbeats 2000000 in
/-- First point of a run: both accumulators zeroed, then each increased by its product. -/
theorem kernel0_first (c : Dev nD) (E : Set ℕ) (i : grid0.Coords)
    (arg2 : Memref sig .tc .vmem S256x2048 .bf16) (harg2 : arg2.IsWhole) (arg3 : Memref sig .tc .vmem S2048x512 .bf16) (harg3 : arg3.IsWhole)
    (arg4 : Memref sig .tc .vmem S512x512 .bf16) (harg4 : arg4.IsWhole) (arg5 : Memref sig .tc .vmem S512 .f32) (harg5 : arg5.IsWhole)
    (arg6 : Memref sig .tc .vmem S4096x512 .bf16) (harg6 : arg6.IsWhole) (arg7 : Memref sig .tc .vmem S4096 .f32) (harg7 : arg7.IsWhole)
    (arg8 : Memref sig .tc .vmem S256x4096 .f32) (harg8 : arg8.IsWhole) (arg9 : Memref sig .tc .vmem S256x512 .f32) (harg9 : arg9.IsWhole)
    (arg10 : Memref sig .tc .vmem S256x512 .f32) (harg10 : arg10.IsWhole)
    (hc0 : cond0_0 i) (hc1 : ¬ cond0_1 i)
    (x0 : Vec F S256x2048 .bf16) (x1 : Vec F S2048x512 .bf16) (K : PUnit → sProp 𝕄) :
    iprop(owns (c : Thread nD τ) arg2 fullShare x0 ∗ owns (c : Thread nD τ) arg3 fullShare x1 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg9 fullShare (k0_pay5 x0 x1 k0_pay1) ∗ owns (c : Thread nD τ) arg10 fullShare (k0_pay6 x0 x1 k0_pay2)) -∗ K ⟨⟩))
      ⊢ wp frame (wpE (defs₀ (F := F)) Variants.none c none) E (cc0__fm_mlp_kernel i arg2 harg2 arg3 harg3 arg4 harg4 arg5 harg5 arg6 harg6 arg7 harg7 arg8 harg8 arg9 harg9 arg10 harg10) K := by
  simp only [cc0__fm_mlp_kernel_eq_skeleton]; unfold cc0__fm_mlp_kernel_skel
  unfold owns
  iintro ⟨⟨%f0, %hf0, H0⟩, ⟨%f1, %hf1, H1⟩, ⟨%da, %fa, -, HA⟩, ⟨%db, %fb, -, HB⟩, Hk⟩
  subst hf0; subst hf1
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [HA]
  · iexists _; isplitr
    swap; · iexact HA
    ipureintro
    sl_unfold_words
    rw [View.read_writes_eq_canon _ _ _ (View.cover_of_tiled _ S256x512.size (by rfl)), View.canon_cons_unit_zero off2']
    simp only [View.readAt_eq_ld, View.ld_unit_zero (S := S256x2048) off2', View.ld_unit_zero (S := S2048x512) off2', View.ld_unit_zero (S := S256x512) off2', View.ld_unit_zero (S := S512x512) off2', View.ld_unit_zero (S := S512) off1', View.ld_unit_zero (S := S4096x512) off2', View.ld_unit_zero (S := S4096) off1', View.ld_unit_zero (S := S256x4096) off2', View.readCov_unit_zero (S := S256x512) _ off2']
  iexists _; isplitr
  swap; · iexact HB
  ipureintro
  sl_unfold_words
  rw [View.read_writes_eq_canon _ _ _ (View.cover_of_tiled _ S256x512.size (by rfl)), View.canon_cons_unit_zero off2']
  simp only [View.readAt_eq_ld, View.ld_unit_zero (S := S256x2048) off2', View.ld_unit_zero (S := S2048x512) off2', View.ld_unit_zero (S := S256x512) off2', View.ld_unit_zero (S := S512x512) off2', View.ld_unit_zero (S := S512) off1', View.ld_unit_zero (S := S4096x512) off2', View.ld_unit_zero (S := S4096) off1', View.ld_unit_zero (S := S256x4096) off2', View.readCov_unit_zero (S := S256x512) _ off2']

set_option maxHeartbeats 2000000 in
/-- A middle point: each accumulator increased by its product. -/
theorem kernel0_mid (c : Dev nD) (E : Set ℕ) (i : grid0.Coords)
    (arg2 : Memref sig .tc .vmem S256x2048 .bf16) (harg2 : arg2.IsWhole) (arg3 : Memref sig .tc .vmem S2048x512 .bf16) (harg3 : arg3.IsWhole)
    (arg4 : Memref sig .tc .vmem S512x512 .bf16) (harg4 : arg4.IsWhole) (arg5 : Memref sig .tc .vmem S512 .f32) (harg5 : arg5.IsWhole)
    (arg6 : Memref sig .tc .vmem S4096x512 .bf16) (harg6 : arg6.IsWhole) (arg7 : Memref sig .tc .vmem S4096 .f32) (harg7 : arg7.IsWhole)
    (arg8 : Memref sig .tc .vmem S256x4096 .f32) (harg8 : arg8.IsWhole) (arg9 : Memref sig .tc .vmem S256x512 .f32) (harg9 : arg9.IsWhole)
    (arg10 : Memref sig .tc .vmem S256x512 .f32) (harg10 : arg10.IsWhole)
    (hc0 : ¬ cond0_0 i) (hc1 : ¬ cond0_1 i)
    (x0 : Vec F S256x2048 .bf16) (x1 : Vec F S2048x512 .bf16) (sa sb : Vec F S256x512 .f32) (K : PUnit → sProp 𝕄) :
    iprop(owns (c : Thread nD τ) arg2 fullShare x0 ∗ owns (c : Thread nD τ) arg3 fullShare x1 ∗ owns (c : Thread nD τ) arg9 fullShare sa ∗ owns (c : Thread nD τ) arg10 fullShare sb
        ∗ (iprop(owns (c : Thread nD τ) arg2 fullShare x0 ∗ owns (c : Thread nD τ) arg3 fullShare x1 ∗ owns (c : Thread nD τ) arg9 fullShare (k0_pay5 x0 x1 sa) ∗ owns (c : Thread nD τ) arg10 fullShare (k0_pay6 x0 x1 sb)) -∗ K ⟨⟩))
      ⊢ wp frame (wpE (defs₀ (F := F)) Variants.none c none) E (cc0__fm_mlp_kernel i arg2 harg2 arg3 harg3 arg4 harg4 arg5 harg5 arg6 harg6 arg7 harg7 arg8 harg8 arg9 harg9 arg10 harg10) K := by
  simp only [cc0__fm_mlp_kernel_eq_skeleton]; unfold cc0__fm_mlp_kernel_skel
  unfold owns
  iintro ⟨⟨%f0, %hf0, H0⟩, ⟨%f1, %hf1, H1⟩, ⟨%fa, %hfa, HA⟩, ⟨%fb, %hfb, HB⟩, Hk⟩
  subst hf0; subst hf1; subst hfa; subst hfb
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [HA]
  · iexists _; isplitr
    swap; · iexact HA
    ipureintro
    sl_unfold_words
    rw [View.read_writes_eq_canon _ _ _ (View.cover_of_tiled _ S256x512.size (by rfl)), View.canon_unit_zero off2']
    simp only [View.readAt_eq_ld, View.ld_unit_zero (S := S256x2048) off2', View.ld_unit_zero (S := S2048x512) off2', View.ld_unit_zero (S := S256x512) off2', View.ld_unit_zero (S := S512x512) off2', View.ld_unit_zero (S := S512) off1', View.ld_unit_zero (S := S4096x512) off2', View.ld_unit_zero (S := S4096) off1', View.ld_unit_zero (S := S256x4096) off2', View.readCov_unit_zero (S := S256x512) _ off2']
  iexists _; isplitr
  swap; · iexact HB
  ipureintro
  sl_unfold_words
  rw [View.read_writes_eq_canon _ _ _ (View.cover_of_tiled _ S256x512.size (by rfl)), View.canon_unit_zero off2']
  simp only [View.readAt_eq_ld, View.ld_unit_zero (S := S256x2048) off2', View.ld_unit_zero (S := S2048x512) off2', View.ld_unit_zero (S := S256x512) off2', View.ld_unit_zero (S := S512x512) off2', View.ld_unit_zero (S := S512) off1', View.ld_unit_zero (S := S4096x512) off2', View.ld_unit_zero (S := S4096) off1', View.ld_unit_zero (S := S256x4096) off2', View.readCov_unit_zero (S := S256x512) _ off2']

set_option maxHeartbeats 4000000 in
/-- Last point of a run: each accumulator increased by its product, then the output block written from both. -/
theorem kernel0_last (c : Dev nD) (E : Set ℕ) (i : grid0.Coords)
    (arg2 : Memref sig .tc .vmem S256x2048 .bf16) (harg2 : arg2.IsWhole) (arg3 : Memref sig .tc .vmem S2048x512 .bf16) (harg3 : arg3.IsWhole)
    (arg4 : Memref sig .tc .vmem S512x512 .bf16) (harg4 : arg4.IsWhole) (arg5 : Memref sig .tc .vmem S512 .f32) (harg5 : arg5.IsWhole)
    (arg6 : Memref sig .tc .vmem S4096x512 .bf16) (harg6 : arg6.IsWhole) (arg7 : Memref sig .tc .vmem S4096 .f32) (harg7 : arg7.IsWhole)
    (arg8 : Memref sig .tc .vmem S256x4096 .f32) (harg8 : arg8.IsWhole) (arg9 : Memref sig .tc .vmem S256x512 .f32) (harg9 : arg9.IsWhole)
    (arg10 : Memref sig .tc .vmem S256x512 .f32) (harg10 : arg10.IsWhole)
    (hc0 : ¬ cond0_0 i) (hc1 : cond0_1 i)
    (x0 : Vec F S256x2048 .bf16) (x1 : Vec F S2048x512 .bf16) (x2 : Vec F S512x512 .bf16) (x3 : Vec F S512 .f32)
    (x4 : Vec F S4096x512 .bf16) (x5 : Vec F S4096 .f32) (sa sb : Vec F S256x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare sa ∗ owns (c : Thread nD τ) arg10 fullShare sb
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k0_pay7 (k0_pay5 x0 x1 sa) (k0_pay6 x0 x1 sb) x2 x3 x4 x5) ∗ owns (c : Thread nD τ) arg9 fullShare (k0_pay5 x0 x1 sa) ∗ owns (c : Thread nD τ) arg10 fullShare (k0_pay6 x0 x1 sb)) -∗ K ⟨⟩))
      ⊢ wp frame (wpE (defs₀ (F := F)) Variants.none c none) E (cc0__fm_mlp_kernel i arg2 harg2 arg3 harg3 arg4 harg4 arg5 harg5 arg6 harg6 arg7 harg7 arg8 harg8 arg9 harg9 arg10 harg10) K := by
  simp only [cc0__fm_mlp_kernel_eq_skeleton]; unfold cc0__fm_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d, %fo, -, HO⟩, ⟨%fa, %hfa, HA⟩, ⟨%fb, %hfb, HB⟩, Hk⟩
  subst hf0; subst hf1; subst hf2; subst hf3; subst hf4; subst hf5; subst hfa; subst hfb
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [HO]
  · iexists _; isplitr
    swap; · iexact HO
    ipureintro
    sl_unfold_words
    rw [View.read_writes_eq_canon _ _ _ (View.cover_of_tiled _ S256x4096.size (by rfl)), View.canon_unit_zero off2']
    simp only [View.readAt_eq_ld, View.ld_unit_zero (S := S256x2048) off2', View.ld_unit_zero (S := S2048x512) off2', View.ld_unit_zero (S := S256x512) off2', View.ld_unit_zero (S := S512x512) off2', View.ld_unit_zero (S := S512) off1', View.ld_unit_zero (S := S4096x512) off2', View.ld_unit_zero (S := S4096) off1', View.ld_unit_zero (S := S256x4096) off2', View.readCov_unit_zero (S := S256x512) _ off2']
  isplitl [HA]
  · iexists _; isplitr
    swap; · iexact HA
    ipureintro
    sl_unfold_words
    rw [View.read_writes_eq_canon _ _ _ (View.cover_of_tiled _ S256x512.size (by rfl)), View.canon_unit_zero off2']
    simp only [View.readAt_eq_ld, View.ld_unit_zero (S := S256x2048) off2', View.ld_unit_zero (S := S2048x512) off2', View.ld_unit_zero (S := S256x512) off2', View.ld_unit_zero (S := S512x512) off2', View.ld_unit_zero (S := S512) off1', View.ld_unit_zero (S := S4096x512) off2', View.ld_unit_zero (S := S4096) off1', View.ld_unit_zero (S := S256x4096) off2', View.readCov_unit_zero (S := S256x512) _ off2']
  iexists _; isplitr
  swap; · iexact HB
  ipureintro
  sl_unfold_words
  rw [View.read_writes_eq_canon _ _ _ (View.cover_of_tiled _ S256x512.size (by rfl)), View.canon_unit_zero off2']
  simp only [View.readAt_eq_ld, View.ld_unit_zero (S := S256x2048) off2', View.ld_unit_zero (S := S2048x512) off2', View.ld_unit_zero (S := S256x512) off2', View.ld_unit_zero (S := S512x512) off2', View.ld_unit_zero (S := S512) off1', View.ld_unit_zero (S := S4096x512) off2', View.ld_unit_zero (S := S4096) off1', View.ld_unit_zero (S := S256x4096) off2', View.readCov_unit_zero (S := S256x512) _ off2']

/-! ## The staging memrefs at a point, and the two scratch accumulators -/

abbrev ms0_0 (t : Fin cfg0.N) : Memref sig .tc .vmem S256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x4096 .f32 := win0_6.stage (cfg0.slots t 6)
abbrev hs0_6 (t : Fin cfg0.N) : (ms0_6 t).IsWhole := hstage0_6 ((cfg0.slots t 6).cast nbuf0_6)
/-- The accumulator of the products, and the accumulator of the products of squares. -/
abbrev scM0a : Memref sig .tc .vmem S256x512 .f32 := Memref.whole cc0_scratch0
abbrev scM0b : Memref sig .tc .vmem S256x512 .f32 := Memref.whole cc0_scratch1

/-- The region's plain invariant — every scoped buffer that is no staging buffer at some contents, the generator
    register at some state — with the two accumulators split off the other scoped buffers. -/
theorem PhiA0_eq (c : Dev nD) :
    (Pipeline.ΦA spec0 c : sProp 𝕄)
      = iprop((((∃ d, owns (c : Thread nD τ) scM0a fullShare d) ∗ (∃ d, owns (c : Thread nD τ) scM0b fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA
  rw [Pipeline.scopedRest_split_of_list spec0 c [cc0_scratch0, cc0_scratch1] (by decide) (by decide)]
  rw [bigSepL_cons, bigSepL_singleton]
  simp only [scM0a, scM0b, owns_whole]; try rfl

section Region0
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved), for any proof data whose array is the entry contents and whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What the accumulators hold after each point -/

/-- The products' accumulator after point `n`: that point's product added to zero at the first point of a run of
    eight, to what the point before left otherwise. -/
def acc0a (c : Dev nD) : (n : ℕ) → n < cfg0.N → Vec F S256x512 .f32
  | 0, hn => k0_pay5 (iblk0 V c 0 ⟨0, hn⟩) (iblk0 V c 1 ⟨0, hn⟩) k0_pay1
  | n + 1, hn => k0_pay5 (iblk0 V c 0 ⟨n + 1, hn⟩) (iblk0 V c 1 ⟨n + 1, hn⟩) (if (n + 1) % 8 = 0 then k0_pay1 else acc0a c n (Nat.lt_of_succ_lt hn))

/-- The same for the products of squares. -/
def acc0b (c : Dev nD) : (n : ℕ) → n < cfg0.N → Vec F S256x512 .f32
  | 0, hn => k0_pay6 (iblk0 V c 0 ⟨0, hn⟩) (iblk0 V c 1 ⟨0, hn⟩) k0_pay2
  | n + 1, hn => k0_pay6 (iblk0 V c 0 ⟨n + 1, hn⟩) (iblk0 V c 1 ⟨n + 1, hn⟩) (if (n + 1) % 8 = 0 then k0_pay2 else acc0b c n (Nat.lt_of_succ_lt hn))

theorem acc0a_first (c : Dev nD) (t : Fin cfg0.N) (h : t.val % 8 = 0) :
    acc0a V c t.val t.isLt = k0_pay5 (iblk0 V c 0 t) (iblk0 V c 1 t) k0_pay1 := by
  obtain ⟨n, hn⟩ := t
  cases n with
  | zero => rfl
  | succ n => simp only [acc0a]; rw [if_pos h]

theorem acc0a_next (c : Dev nD) (t : Fin cfg0.N) (h : ¬t.val % 8 = 0) :
    acc0a V c t.val t.isLt = k0_pay5 (iblk0 V c 0 t) (iblk0 V c 1 t) (acc0a V c (t.val - 1) (Nat.lt_of_le_of_lt (Nat.sub_le _ _) t.isLt)) := by
  obtain ⟨n, hn⟩ := t
  cases n with
  | zero => exact absurd (Nat.zero_mod _) h
  | succ n => simp only [acc0a]; rw [if_neg h]; rfl

theorem acc0b_first (c : Dev nD) (t : Fin cfg0.N) (h : t.val % 8 = 0) :
    acc0b V c t.val t.isLt = k0_pay6 (iblk0 V c 0 t) (iblk0 V c 1 t) k0_pay2 := by
  obtain ⟨n, hn⟩ := t
  cases n with
  | zero => rfl
  | succ n => simp only [acc0b]; rw [if_pos h]

theorem acc0b_next (c : Dev nD) (t : Fin cfg0.N) (h : ¬t.val % 8 = 0) :
    acc0b V c t.val t.isLt = k0_pay6 (iblk0 V c 0 t) (iblk0 V c 1 t) (acc0b V c (t.val - 1) (Nat.lt_of_le_of_lt (Nat.sub_le _ _) t.isLt)) := by
  obtain ⟨n, hn⟩ := t
  cases n with
  | zero => exact absurd (Nat.zero_mod _) h
  | succ n => simp only [acc0b]; rw [if_neg h]; rfl

/-- The region's invariant before position `n`: the plain one before the first point; afterwards the two accumulators
    at what the point before left, the other scoped buffers at anything, the generator register at some state. -/
def PhiS0 (c : Dev nD) : (n : ℕ) → n ≤ cfg0.N → sProp 𝕄
  | 0, _ => Pipeline.ΦA spec0 c
  | n + 1, hn => iprop(((owns (c : Thread nD τ) scM0a fullShare (acc0a V c n hn) ∗ owns (c : Thread nD τ) scM0b fullShare (acc0b V c n hn))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(((owns (c : Thread nD τ) scM0a fullShare (acc0a V c n hn) ∗ owns (c : Thread nD τ) scM0b fullShare (acc0b V c n hn))
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(((owns (c : Thread nD τ) scM0a fullShare (acc0a V c (n - 1) (by omega)) ∗ owns (c : Thread nD τ) scM0b fullShare (acc0b V c (n - 1) (by omega)))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The proof data -/

/-- The arrays as the region finds them; after the body each input's buffer at its block and the output's at the
    perceptron of the two accumulators (read only where the point writes it); the invariant `PhiS0`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => k0_pay7 (acc0a V c t.val t.isLt) (acc0b V c t.val t.isLt) (iblk0 V c 2 t) (iblk0 V c 3 t) (iblk0 V c 4 t) (iblk0 V c 5 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = k0_pay7 (acc0a V c t.val t.isLt) (acc0b V c t.val t.isLt) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 6400000 in
/-- The body at any point. The inputs' memrefs hold their blocks; `t mod 8` says which case the point is in; the
    invariant hands the body the two accumulators (at anything at the very first point, at what the point before
    left afterwards) and takes them back at this point's values; off the last point of a run the output's buffer
    goes back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  have hN : t.val < 32 := lt_of_lt_of_eq t.isLt (show cfg0.N = 32 from N_0)
  by_cases h1 : t.val % 8 = 7
  · -- the last point of a run: both accumulators updated, the output written
    have h0 : ¬t.val % 8 = 0 := by omega
    have hz : t.val ≠ 0 := by omega
    rw [show (dat0 V c).leavesExact 6 t = owns (c : Thread nD τ) (ms0_6 t) fullShare ((dat0 V c).after 6 t) from by
      unfold Dat.leavesExact; rw [liveAt0_6 t ((hcond0_1 t).mpr h1)], after0_6]
    rw [acc0a_next V c t h0, acc0b_next V c t h0]
    rw [PhiS0_castSucc V c t, PhiS0_pos V c _ _ hz]
    iintro ⟨⟨⟨⟨HA, HB⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (kernel0_last c Set.univ (grid0.coords t) _ _ _ _ _ _ _ _ _ _ _ _ _ _ _ _ _ _ (fun h => h0 ((hcond0_0 t).mp h)) ((hcond0_1 t).mpr h1)
      (iblk0 V c 0 t) (iblk0 V c 1 t) (iblk0 V c 2 t) (iblk0 V c 3 t) (iblk0 V c 4 t) (iblk0 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HA]; · iexact HA
    isplitl [HB]; · iexact HB
    iintro ⟨H0, H1, H2, H3, H4, H5, H6, HA, HB⟩
    isplitl [HA HB Hr Hg]
    · isplitl [HA HB Hr]
      · isplitl [HA HB]
        · isplitl [HA]; · iexact HA
          iexact HB
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dat0 V c) 6 t (idleAt0_6 t (fun h => h1 ((hcond0_1 t).mp h))) (noFlush0_6 t (fun h => h1 ((hcond0_1 t).mp h)))]
    by_cases h0 : t.val % 8 = 0
    · -- the first point of a run: both accumulators reset, then updated
      rw [acc0a_first V c t h0, acc0b_first V c t h0]
      by_cases hz : t.val = 0
      · rw [PhiS0_castSucc V c t, PhiS0_zero V c _ _ hz, PhiA0_eq]
        iintro ⟨⟨⟨⟨⟨%da, HA⟩, ⟨%db, HB⟩⟩, Hr⟩, Hg⟩, Ho, ⟨%d0, H0⟩, ⟨%d1, H1⟩, ⟨%d2, H2⟩, ⟨%d3, H3⟩, ⟨%d4, H4⟩, ⟨%d5, H5⟩, ⟨%d6, H6⟩⟩
        iapply (kernel0_first c Set.univ (grid0.coords t) _ _ _ _ _ _ _ _ _ _ _ _ _ _ _ _ _ _ ((hcond0_0 t).mpr h0) (fun h => h1 ((hcond0_1 t).mp h))
          (iblk0 V c 0 t) (iblk0 V c 1 t) _)
        isplitl [H0]; · iexact H0
        isplitl [H1]; · iexact H1
        isplitl [HA]; · iexists _; iexact HA
        isplitl [HB]; · iexists _; iexact HB
        iintro ⟨H0, H1, HA, HB⟩
        isplitl [HA HB Hr Hg]
        · isplitl [HA HB Hr]
          · isplitl [HA HB]
            · isplitl [HA]; · iexact HA
              iexact HB
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS0_castSucc V c t, PhiS0_pos V c _ _ hz]
        iintro ⟨⟨⟨⟨HA, HB⟩, Hr⟩, Hg⟩, Ho, ⟨%d0, H0⟩, ⟨%d1, H1⟩, ⟨%d2, H2⟩, ⟨%d3, H3⟩, ⟨%d4, H4⟩, ⟨%d5, H5⟩, ⟨%d6, H6⟩⟩
        iapply (kernel0_first c Set.univ (grid0.coords t) _ _ _ _ _ _ _ _ _ _ _ _ _ _ _ _ _ _ ((hcond0_0 t).mpr h0) (fun h => h1 ((hcond0_1 t).mp h))
          (iblk0 V c 0 t) (iblk0 V c 1 t) _)
        isplitl [H0]; · iexact H0
        isplitl [H1]; · iexact H1
        isplitl [HA]; · iexists _; iexact HA
        isplitl [HB]; · iexists _; iexact HB
        iintro ⟨H0, H1, HA, HB⟩
        isplitl [HA HB Hr Hg]
        · isplitl [HA HB Hr]
          · isplitl [HA HB]
            · isplitl [HA]; · iexact HA
              iexact HB
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
    · -- a middle point: both accumulators updated
      have hz : t.val ≠ 0 := by omega
      rw [acc0a_next V c t h0, acc0b_next V c t h0]
      rw [PhiS0_castSucc V c t, PhiS0_pos V c _ _ hz]
      iintro ⟨⟨⟨⟨HA, HB⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (kernel0_mid c Set.univ (grid0.coords t) _ _ _ _ _ _ _ _ _ _ _ _ _ _ _ _ _ _ (fun h => h0 ((hcond0_0 t).mp h)) (fun h => h1 ((hcond0_1 t).mp h))
        (iblk0 V c 0 t) (iblk0 V c 1 t) _ _ _)
      isplitl [H0]; · iexact H0
      isplitl [H1]; · iexact H1
      isplitl [HA]; · iexact HA
      isplitl [HB]; · iexact HB
      iintro ⟨H0, H1, HA, HB⟩
      isplitl [HA HB Hr Hg]
      · isplitl [HA HB Hr]
        · isplitl [HA HB]
          · isplitl [HA]; · iexact HA
            iexact HB
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- and after the last point the invariant gives it back, the accumulators' values forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨⟨HA, HB⟩, Hr⟩, Hg⟩
  isplitl [HA HB Hr]
  · isplitl [HA HB]
    · isplitl [HA]; · iexists _; iexact HA
      iexists _; iexact HB
    iexact Hr
  iexact Hg

end Region0

end Cert.KernelIdeal.Hand
end
-- ==== Proof.KI.Body1.lean ====
import proofs.«126562_j4071628997276_1_alg».proof.Proof.Gen.KernelIdeal.Launch
import proofs.«126562_j4071628997276_1_alg».proof.Proof.Gen.KernelIdeal.Skeleton
import proofs.«126562_j4071628997276_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

/-!
  # The second kernel region: the linear layer, accumulated over four feature blocks, plus the interaction term

  Its grid is 4 × 4 × 4, the last coordinate `k = t mod 4` running fastest. The body keeps a scratch accumulator of
  shape 256 × 1024: at `k = 0` it is reset to zero; at every point the product of the current block of the features
  (256 × 4096) with the transposed block of the linear weights (1024 × 4096) is added to it; at `k = 3` the output
  block is written as accumulator + bias + the interaction block the first region left. So a point is in one of
  three cases (first, middle, last of its run of four), and what the scratch holds after a point is a recursion
  on the point (`acc1`). The region's invariant carries the scratch at that value from a point to the next.
-/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a rectangle that is the whole buffer are all zero. -/
theorem off2 : (![0, 0] : Fin 2 → Nat) = fun _ => 0 := by funext a; fin_cases a <;> rfl
theorem off1 : (![0] : Fin 1 → Nat) = fun _ => 0 := by funext a; fin_cases a; rfl

/-! ## The body's two branch conditions, over the grid -/

/-- `k = 0`: the accumulator is reset. -/
abbrev cond1_0 (i : grid1.Coords) : Prop := (Scalar.cmpi .ne (Scalar.extui (Scalar.cmpi .eq (BitVec.ofNat 32 (i 2).val) 0#32)) 0#32) = 1#1
/-- `k = 3`: the output block is written. -/
abbrev cond1_1 (i : grid1.Coords) : Prop := k1_cond2 i = 1#1
theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 = 3 :=
  (by decide +kernel : ∀ t : Fin grid1.N, cond1_1 (grid1.coords t) ↔ t.val % 4 = 3)

/-- The inputs are never idle; the output is idle, and not written back, exactly off the last point of a run. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The body on any whole memrefs, case by case -/

set_option maxHeartbeats 1000000 in
theorem kernel1_first (c : Dev nD) (E : Set ℕ) (i : grid1.Coords)
    (arg3 : Memref sig .tc .vmem S256x4096 .bf16) (harg3 : arg3.IsWhole) (arg4 : Memref sig .tc .vmem S1024x4096 .bf16) (harg4 : arg4.IsWhole)
    (arg5 : Memref sig .tc .vmem S1024 .f32) (harg5 : arg5.IsWhole) (arg6 : Memref sig .tc .vmem S256x1024 .f32) (harg6 : arg6.IsWhole)
    (arg7 : Memref sig .tc .vmem S256x1024 .f32) (harg7 : arg7.IsWhole) (arg8 : Memref sig .tc .vmem S256x1024 .f32) (harg8 : arg8.IsWhole)
    (hc0 : cond1_0 i) (hc1 : ¬ cond1_1 i)
    (x0 : Vec F S256x4096 .bf16) (x1 : Vec F S1024x4096 .bf16) (K : PUnit → sProp 𝕄) :
    iprop(owns (c : Thread nD τ) arg3 fullShare x0 ∗ owns (c : Thread nD τ) arg4 fullShare x1 ∗ (∃ d, owns (c : Thread nD τ) arg8 fullShare d)
        ∗ (iprop(owns (c : Thread nD τ) arg3 fullShare x0 ∗ owns (c : Thread nD τ) arg4 fullShare x1 ∗ owns (c : Thread nD τ) arg8 fullShare (k1_pay2 k1_pay1 x0 x1)) -∗ K ⟨⟩))
      ⊢ wp frame (wpE (defs₀ (F := F)) Variants.none c none) E (cc1__linear_kernel i arg3 harg3 arg4 harg4 arg5 harg5 arg6 harg6 arg7 harg7 arg8 harg8) K := by
  simp only [cc1__linear_kernel_eq_skeleton]; unfold cc1__linear_kernel_skel
  unfold owns
  iintro ⟨⟨%f0, %hf0, H0⟩, ⟨%f1, %hf1, H1⟩, ⟨%d, %fs, -, HS⟩, Hk⟩
  subst hf0; subst hf1
  sl_exec (disch := first | exact hc0 | exact hc1)
  sl_step
  iapply Hk
  isplitl [H0]; · iexists _; isplitr; · ipureintro; rfl
                  iexact H0
  isplitl [H1]; · iexists _; isplitr; · ipureintro; rfl
                  iexact H1
  iexists _; isplitr
  swap; · iexact HS
  ipureintro
  sl_unfold_words
  rw [View.read_writes_eq_canon _ _ _ (View.cover_of_tiled _ S256x1024.size (by rfl)), View.canon_cons_unit_zero off2]
  simp only [View.readAt_eq_ld, View.ld_unit_zero (S := S256x1024) off2, View.ld_unit_zero (S := S256x4096) off2, View.ld_unit_zero (S := S1024x4096) off2, View.ld_unit_zero (S := S1024) off1, View.readCov_unit_zero (S := S256x1024) _ off2]

set_option maxHeartbeats 1000000 in
theorem kernel1_mid (c : Dev nD) (E : Set ℕ) (i : grid1.Coords)
    (arg3 : Memref sig .tc .vmem S256x4096 .bf16) (harg3 : arg3.IsWhole) (arg4 : Memref sig .tc .vmem S1024x4096 .bf16) (harg4 : arg4.IsWhole)
    (arg5 : Memref sig .tc .vmem S1024 .f32) (harg5 : arg5.IsWhole) (arg6 : Memref sig .tc .vmem S256x1024 .f32) (harg6 : arg6.IsWhole)
    (arg7 : Memref sig .tc .vmem S256x1024 .f32) (harg7 : arg7.IsWhole) (arg8 : Memref sig .tc .vmem S256x1024 .f32) (harg8 : arg8.IsWhole)
    (hc0 : ¬ cond1_0 i) (hc1 : ¬ cond1_1 i)
    (x0 : Vec F S256x4096 .bf16) (x1 : Vec F S1024x4096 .bf16) (s : Vec F S256x1024 .f32) (K : PUnit → sProp 𝕄) :
    iprop(owns (c : Thread nD τ) arg3 fullShare x0 ∗ owns (c : Thread nD τ) arg4 fullShare x1 ∗ owns (c : Thread nD τ) arg8 fullShare s
        ∗ (iprop(owns (c : Thread nD τ) arg3 fullShare x0 ∗ owns (c : Thread nD τ) arg4 fullShare x1 ∗ owns (c : Thread nD τ) arg8 fullShare (k1_pay2 s x0 x1)) -∗ K ⟨⟩))
      ⊢ wp frame (wpE (defs₀ (F := F)) Variants.none c none) E (cc1__linear_kernel i arg3 harg3 arg4 harg4 arg5 harg5 arg6 harg6 arg7 harg7 arg8 harg8) K := by
  simp only [cc1__linear_kernel_eq_skeleton]; unfold cc1__linear_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]; · iexists _; isplitr; · ipureintro; rfl
                  iexact H0
  isplitl [H1]; · iexists _; isplitr; · ipureintro; rfl
                  iexact H1
  iexists _; isplitr
  swap; · iexact HS
  ipureintro
  sl_unfold_words
  rw [View.read_writes_eq_canon _ _ _ (View.cover_of_tiled _ S256x1024.size (by rfl)), View.canon_unit_zero off2]
  simp only [View.readAt_eq_ld, View.ld_unit_zero (S := S256x1024) off2, View.ld_unit_zero (S := S256x4096) off2, View.ld_unit_zero (S := S1024x4096) off2, View.ld_unit_zero (S := S1024) off1, View.readCov_unit_zero (S := S256x1024) _ off2]

set_option maxHeartbeats 1000000 in
theorem kernel1_last (c : Dev nD) (E : Set ℕ) (i : grid1.Coords)
    (arg3 : Memref sig .tc .vmem S256x4096 .bf16) (harg3 : arg3.IsWhole) (arg4 : Memref sig .tc .vmem S1024x4096 .bf16) (harg4 : arg4.IsWhole)
    (arg5 : Memref sig .tc .vmem S1024 .f32) (harg5 : arg5.IsWhole) (arg6 : Memref sig .tc .vmem S256x1024 .f32) (harg6 : arg6.IsWhole)
    (arg7 : Memref sig .tc .vmem S256x1024 .f32) (harg7 : arg7.IsWhole) (arg8 : Memref sig .tc .vmem S256x1024 .f32) (harg8 : arg8.IsWhole)
    (hc0 : ¬ cond1_0 i) (hc1 : cond1_1 i)
    (x0 : Vec F S256x4096 .bf16) (x1 : Vec F S1024x4096 .bf16) (x2 : Vec F S1024 .f32) (x3 : Vec F S256x1024 .f32) (s : Vec F S256x1024 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ (∃ d, owns (c : Thread nD τ) arg7 fullShare d) ∗ owns (c : Thread nD τ) arg8 fullShare s
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (k1_pay3 (k1_pay2 s x0 x1) x2 x3) ∗ owns (c : Thread nD τ) arg8 fullShare (k1_pay2 s x0 x1)) -∗ K ⟨⟩))
      ⊢ wp frame (wpE (defs₀ (F := F)) Variants.none c none) E (cc1__linear_kernel i arg3 harg3 arg4 harg4 arg5 harg5 arg6 harg6 arg7 harg7 arg8 harg8) K := by
  simp only [cc1__linear_kernel_eq_skeleton]; unfold cc1__linear_kernel_skel
  unfold owns
  iintro ⟨⟨%f0, %hf0, H0⟩, ⟨%f1, %hf1, H1⟩, ⟨%f2, %hf2, H2⟩, ⟨%f3, %hf3, H3⟩, ⟨%d, %fo, -, HO⟩, ⟨%fs, %hfs, HS⟩, Hk⟩
  subst hf0; subst hf1; subst hf2; subst hf3; subst hfs
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [HO]
  · iexists _; isplitr
    swap; · iexact HO
    ipureintro
    sl_unfold_words
    rw [View.read_writes_eq_canon _ _ _ (View.cover_of_tiled _ S256x1024.size (by rfl)), View.canon_unit_zero off2]
    simp only [View.readAt_eq_ld, View.ld_unit_zero (S := S256x1024) off2, View.ld_unit_zero (S := S256x4096) off2, View.ld_unit_zero (S := S1024x4096) off2, View.ld_unit_zero (S := S1024) off1, View.readCov_unit_zero (S := S256x1024) _ off2]
  iexists _; isplitr
  swap; · iexact HS
  ipureintro
  sl_unfold_words
  rw [View.read_writes_eq_canon _ _ _ (View.cover_of_tiled _ S256x1024.size (by rfl)), View.canon_unit_zero off2]
  simp only [View.readAt_eq_ld, View.ld_unit_zero (S := S256x1024) off2, View.ld_unit_zero (S := S256x4096) off2, View.ld_unit_zero (S := S1024x4096) off2, View.ld_unit_zero (S := S1024) off1, View.readCov_unit_zero (S := S256x1024) _ off2]

/-! ## The staging memrefs at a point, and the scratch -/

abbrev ms1_0 (t : Fin cfg1.N) : Memref sig .tc .vmem S256x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x4096 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x1024 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1 : Memref sig .tc .vmem S256x1024 .f32 := Memref.whole cc1_scratch0

/-- The region's plain invariant — every scoped buffer that is no staging buffer at some contents, the generator
    register at some state — with the accumulator split off the other scoped buffers. -/
theorem PhiA1_eq (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [bigSepL_singleton, scM1, owns_whole]; try rfl

section Region1
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data whose array is the entry contents and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What the accumulator holds after each point -/

/-- After point `n`: the product of that point's blocks added to zero at the first point of a run of four, to what
    the point before left otherwise. -/
def acc1 (c : Dev nD) : (n : ℕ) → n < cfg1.N → Vec F S256x1024 .f32
  | 0, hn => k1_pay2 k1_pay1 (iblk1 V c 0 ⟨0, hn⟩) (iblk1 V c 1 ⟨0, hn⟩)
  | n + 1, hn => k1_pay2 (if (n + 1) % 4 = 0 then k1_pay1 else acc1 c n (Nat.lt_of_succ_lt hn)) (iblk1 V c 0 ⟨n + 1, hn⟩) (iblk1 V c 1 ⟨n + 1, hn⟩)

theorem acc1_first (c : Dev nD) (t : Fin cfg1.N) (h : t.val % 4 = 0) :
    acc1 V c t.val t.isLt = k1_pay2 k1_pay1 (iblk1 V c 0 t) (iblk1 V c 1 t) := by
  obtain ⟨n, hn⟩ := t
  cases n with
  | zero => rfl
  | succ n => simp only [acc1]; rw [if_pos h]

theorem acc1_next (c : Dev nD) (t : Fin cfg1.N) (h : ¬t.val % 4 = 0) :
    acc1 V c t.val t.isLt = k1_pay2 (acc1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => simp only [acc1]; rw [if_neg h]; rfl

/-- The region's invariant before position `n`: the plain one before the first point; afterwards the accumulator at
    what the point before left, the other scoped buffers at anything, the generator register at some state. -/
def PhiS1 (c : Dev nD) : (n : ℕ) → n ≤ cfg1.N → sProp 𝕄
  | 0, _ => Pipeline.ΦA spec1 c
  | n + 1, hn => iprop((owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop((owns (c : Thread nD τ) scM1 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The arrays as the region finds them; after the body each input's buffer at its block and the output's at
    accumulator + bias + interaction block (read only where the point writes it); the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (acc1 V c t.val t.isLt) (iblk1 V c 2 t) (iblk1 V c 3 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay3 (acc1 V c t.val t.isLt) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' memrefs hold their blocks; `t mod 4` says which case the point is in; the
    invariant hands the body the accumulator (at anything at the very first point, at what the point before left
    afterwards) and takes it back at this point's value; off the last point of a run the output's buffer goes back
    as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 64 := lt_of_lt_of_eq t.isLt (show cfg1.N = 64 from N_1)
  by_cases h1 : t.val % 4 = 3
  · -- the last point of a run: the accumulator updated, the output written
    have h0 : ¬t.val % 4 = 0 := by omega
    have hz : t.val ≠ 0 := by omega
    rw [show (dat1 V c).leavesExact 4 t = owns (c : Thread nD τ) (ms1_4 t) fullShare ((dat1 V c).after 4 t) from by
      unfold Dat.leavesExact; rw [liveAt1_4 t ((hcond1_1 t).mpr h1)], after1_4]
    rw [acc1_next V c t h0]
    rw [PhiS1_castSucc V c t, PhiS1_pos V c _ _ hz]
    iintro ⟨⟨⟨HS, Hr⟩, Hg⟩, Ho, ⟨%d0, H0⟩, ⟨%d1, H1⟩, ⟨%d2, H2⟩, ⟨%d3, H3⟩, ⟨%d4, H4⟩⟩
    iapply (kernel1_last c Set.univ (grid1.coords t) _ _ _ _ _ _ _ _ _ _ _ _ (fun h => h0 ((hcond1_0 t).mp h)) ((hcond1_1 t).mpr h1)
      (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    iexact H4
  · rw [Dat.leavesExact_idle (dat1 V c) 4 t (idleAt1_4 t (fun h => h1 ((hcond1_1 t).mp h))) (noFlush1_4 t (fun h => h1 ((hcond1_1 t).mp h)))]
    by_cases h0 : t.val % 4 = 0
    · -- the first point of a run: the accumulator reset, then updated
      rw [acc1_first V c t h0]
      by_cases hz : t.val = 0
      · rw [PhiS1_castSucc V c t, PhiS1_zero V c _ _ hz, PhiA1_eq]
        iintro ⟨⟨⟨⟨%ds, HS⟩, Hr⟩, Hg⟩, Ho, ⟨%d0, H0⟩, ⟨%d1, H1⟩, ⟨%d2, H2⟩, ⟨%d3, H3⟩, ⟨%d4, H4⟩⟩
        iapply (kernel1_first c Set.univ (grid1.coords t) _ _ _ _ _ _ _ _ _ _ _ _ ((hcond1_0 t).mpr h0) (fun h => h1 ((hcond1_1 t).mp h))
          (iblk1 V c 0 t) (iblk1 V c 1 t) _)
        isplitl [H0]; · iexact H0
        isplitl [H1]; · iexact H1
        isplitl [HS]; · iexists _; iexact HS
        iintro ⟨H0, H1, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HS, Hr⟩, Hg⟩, Ho, ⟨%d0, H0⟩, ⟨%d1, H1⟩, ⟨%d2, H2⟩, ⟨%d3, H3⟩, ⟨%d4, H4⟩⟩
        iapply (kernel1_first c Set.univ (grid1.coords t) _ _ _ _ _ _ _ _ _ _ _ _ ((hcond1_0 t).mpr h0) (fun h => h1 ((hcond1_1 t).mp h))
          (iblk1 V c 0 t) (iblk1 V c 1 t) _)
        isplitl [H0]; · iexact H0
        isplitl [H1]; · iexact H1
        isplitl [HS]; · iexists _; iexact HS
        iintro ⟨H0, H1, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        isplitl [H2]; · iexact H2
        isplitl [H3]; · iexact H3
        iexists _; iexact H4
    · -- a middle point: the accumulator updated
      have hz : t.val ≠ 0 := by omega
      rw [acc1_next V c t h0]
      rw [PhiS1_castSucc V c t, PhiS1_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply (kernel1_mid c Set.univ (grid1.coords t) _ _ _ _ _ _ _ _ _ _ _ _ (fun h => h0 ((hcond1_0 t).mp h)) (fun h => h1 ((hcond1_1 t).mp h))
        (iblk1 V c 0 t) (iblk1 V c 1 t) _ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- and after the last point the invariant gives it back, the accumulator's value forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, Hr⟩, Hg⟩
  isplitl [HS Hr]
  · isplitl [HS]; · iexists _; iexact HS
    iexact Hr
  iexact Hg

end Region1

end Cert.KernelIdeal.Hand
end
-- ==== Proof.KI.Run.lean ====
import proofs.«126562_j4071628997276_1_alg».proof.Proof.KI.Body0
import proofs.«126562_j4071628997276_1_alg».proof.Proof.KI.Body1
import proofs.«126562_j4071628997276_1_alg».proof.Proof.Gen.KernelIdeal.Regions

/-!
  # The whole program: five host conversions, then the two kernel regions

  The buffer contents at each boundary are a fold from the launch memory: after the host stretch (each of the five
  large operands converted to the kernels' format); after the first region (its output array at what its write-backs
  leave, every other buffer as entered); after the second region (likewise). No item writes an argument array, so
  each argument walks back through the fold to its launch contents; the result array holds what the second region's
  write-backs leave. The run is the library's launch of a list of segments, each region a record of its layout, its
  body obligation and the four entailments around the thread state "every unscoped buffer at the boundary's contents,
  the generator register at some state, nothing owed".
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the five host conversions (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit, likewise (the second region is entered from `W2`: no host operation between). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

/-- `main_arg0` ends as launched: no host operation writes it and no region changes it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- `main_arg1` ends as launched: no host operation writes it and no region changes it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- `main_arg2` ends as launched: no host operation writes it and no region changes it. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- `main_arg3` ends as launched: no host operation writes it and no region changes it. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := (W3_arr m ρ c 2).trans (((dat1 (V2 m ρ) c).arrAt_in 2 rfl _).trans (A_eq1 (V2 m ρ) c 2))
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- `main_arg4` ends as launched: no host operation writes it and no region changes it. -/
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- `main_arg5` ends as launched: no host operation writes it and no region changes it. -/
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := (W2_arr m ρ c 3).trans (((dat0 (V1 m ρ) c).arrAt_in 3 rfl _).trans (A_eq0 (V1 m ρ) c 3))
    _ = W0 m ρ c (Proc.devRef .tc main_arg5) := StableHlo.after_of_writes_sub hostOps0 _ hostOps0_writes (by decide)
    _ = m ((c : Thread nD τ).loc main_arg5) := rfl

/-- `main_arg6` ends as launched: no host operation writes it and no region changes it. -/
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-- `main_arg7` ends as launched: no host operation writes it and no region changes it. -/
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := (W2_arr m ρ c 5).trans (((dat0 (V1 m ρ) c).arrAt_in 5 rfl _).trans (A_eq0 (V1 m ρ) c 5))
    _ = W0 m ρ c (Proc.devRef .tc main_arg7) := StableHlo.after_of_writes_sub hostOps0 _ hostOps0_writes (by decide)
    _ = m ((c : Thread nD τ).loc main_arg7) := rfl

/-- The result array after the run: what the second region's write-backs leave. -/
theorem W3_main_v6 (c : Dev nD) : W3 m ρ c (Proc.devRef .tc main_v6) = (dat1 (V2 m ρ) c).arrAt 4 cfg1.N := W3_arr m ρ c 4

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The host stretch as a segment over the unscoped references from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m ρ) R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at the contents before it, left with its
    arrays at what the write-backs leave and every other buffer as entered; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    refine .trans ?_ (hin0 (V1 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V1 m ρ) c).Φ (Fin.last cfg0.N) from rfl]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left with its
    arrays at what the write-backs leave and every other buffer as entered; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine .trans ?_ (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg0 m ρ), .region (reg0 m ρ), .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and in every final state each unscoped buffer holds the last boundary's contents: the library's launch over the
    three segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The run with its post read at the result and the arguments: the result array at what the second region's
    write-backs leave, every argument as launched. -/
theorem run_value : θ_run defs (onTc (τ := τ) (main (F := F))) ⟨m, fun _ => 0, ρ⟩ (fun r => ∀ c : Dev nD,
      r.2.mem ((c.tc : Thread nD τ).loc main_v6) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v6 (by decide))).trans (W3_main_v6 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c)⟩) (run_all m ρ)

/-- THE FRAME: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => (h c).2) (run_value m ρ)

end Cert.KernelIdeal.Hand

end
-- ==== Proof.KI.Entry.lean ====
import proofs.«126562_j4071628997276_1_alg».proof.Proof.KI.Run
import Idealize.ShloMosaic.Lib.StableHlo.Run
import Idealize.ShloMosaic.PureOps.Ideal

/-!
  # The regions' entry arrays, read back to the arguments

  Before the first region five host operations convert the large operands to the kernels' storage format; at the
  ideal instance a change of format is the identity, so each converted array IS its argument. The first region's
  inputs are those arrays and two arguments it reads directly; the second region reads the converted features and
  linear weights, the linear bias, and the array the first region wrote.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## After the host conversions -/

theorem V1_main_v0 (c : Dev nD) : V1 m ρ c main_v0 = m ((c : Thread nD τ).loc main_arg0) := by
  show StableHlo.after hostOps0 (W0 m ρ c) (Proc.devRef .tc main_v0) = _
  dsimp only [hostOps0]; after_results; rfl
theorem V1_main_v1 (c : Dev nD) : V1 m ρ c main_v1 = m ((c : Thread nD τ).loc main_arg1) := by
  show StableHlo.after hostOps0 (W0 m ρ c) (Proc.devRef .tc main_v1) = _
  dsimp only [hostOps0]; after_results; rfl
theorem V1_main_v2 (c : Dev nD) : V1 m ρ c main_v2 = m ((c : Thread nD τ).loc main_arg2) := by
  show StableHlo.after hostOps0 (W0 m ρ c) (Proc.devRef .tc main_v2) = _
  dsimp only [hostOps0]; after_results; rfl
theorem V1_main_v3 (c : Dev nD) : V1 m ρ c main_v3 = m ((c : Thread nD τ).loc main_arg4) := by
  show StableHlo.after hostOps0 (W0 m ρ c) (Proc.devRef .tc main_v3) = _
  dsimp only [hostOps0]; after_results; rfl
theorem V1_main_v4 (c : Dev nD) : V1 m ρ c main_v4 = m ((c : Thread nD τ).loc main_arg6) := by
  show StableHlo.after hostOps0 (W0 m ρ c) (Proc.devRef .tc main_v4) = _
  dsimp only [hostOps0]; after_results; rfl
/-- An argument no host operation writes is as launched. -/
theorem V1_main_arg3 (c : Dev nD) : V1 m ρ c main_arg3 = m ((c : Thread nD τ).loc main_arg3) :=
  StableHlo.after_of_writes_sub hostOps0 _ hostOps0_writes (by decide)
theorem V1_main_arg5 (c : Dev nD) : V1 m ρ c main_arg5 = m ((c : Thread nD τ).loc main_arg5) :=
  StableHlo.after_of_writes_sub hostOps0 _ hostOps0_writes (by decide)
theorem V1_main_arg7 (c : Dev nD) : V1 m ρ c main_arg7 = m ((c : Thread nD τ).loc main_arg7) :=
  StableHlo.after_of_writes_sub hostOps0 _ hostOps0_writes (by decide)

/-! ## After the first region -/

/-- The features are an input of the first region: unchanged by it. -/
theorem V2_main_v0 (c : Dev nD) : V2 m ρ c main_v0 = m ((c : Thread nD τ).loc main_arg0) :=
  (W2_arr m ρ c 0).trans ((((dat0 (V1 m ρ) c).arrAt_in 0 rfl _).trans (A_eq0 (V1 m ρ) c 0)).trans (V1_main_v0 m ρ c))
/-- The linear weights and bias are no array of the first region: it leaves them as entered. -/
theorem V2_main_v2 (c : Dev nD) : V2 m ρ c main_v2 = m ((c : Thread nD τ).loc main_arg2) :=
  (W2_of_ne m ρ c main_v2 (by decide)).trans (V1_main_v2 m ρ c)
theorem V2_main_arg3 (c : Dev nD) : V2 m ρ c main_arg3 = m ((c : Thread nD τ).loc main_arg3) :=
  (W2_of_ne m ρ c main_arg3 (by decide)).trans (V1_main_arg3 m ρ c)
/-- The interaction array is what the first region's write-backs leave. -/
theorem V2_main_v5 (c : Dev nD) : V2 m ρ c main_v5 = (dat0 (V1 m ρ) c).arrAt 6 cfg0.N := W2_arr m ρ c 6

end Cert.KernelIdeal.Hand

end
-- ==== Proof.Spec.lean ====
import Idealize.ShloMosaic.PureOps.Ideal
import Idealize.ShloMosaic.PureOps.Ideal.Laws

/-!
  The layer both programs compute, as ONE function of the eight argument arrays over the extended reals.

  With `s` the feature matrix (1024 × 16384), `e` the embedding table (16384 × 512), `lw`, `lb` the linear layer
  (4096 × 16384 and 4096), `w1`, `b1` the first perceptron layer (512 × 512 and 512) and `w2`, `b2` the second
  (4096 × 512 and 4096):

  * `sumEmb p d  = Σ_k s(p,k) · e(k,d)` and `sumSq p d = Σ_k s(p,k)² · e(k,d)²`, both over the 16384 features;
  * the pairwise interaction `inter p d = ½ · (sumEmb p d · sumEmb p d − sumSq p d)`;
  * the hidden layer `hidden p j = max (Σ_i inter p i · w1(j,i) + b1 j) 0`;
  * `interOut p o = Σ_i hidden p i · w2(o,i) + b2 o` and `linear p o = Σ_k s(p,k) · lw(o,k) + lb o`;
  * the result `G p o = linear p o + interOut p o`.

  The second half of the file is the one law the comparison needs beyond reading both sides at an index: a sum over
  `n · K` terms taken `K` at a time, each block added to what the blocks before it gave, starting from zero, is the
  whole sum. Addition on the extended reals is associative and commutative and zero is neutral, so no finiteness
  is asked of the terms.
-/

open scoped BigOperators

namespace Cert.Spec

open Idealize.ShloMosaic

/-- The literal one half, as the binary32 word both programs carry. -/
noncomputable def half : EReal := Ideal.ofBits .f32 0x3F000000#32

section Layer

variable (s : Fin 1024 → Fin 16384 → EReal) (e : Fin 16384 → Fin 512 → EReal)
  (lw : Fin 4096 → Fin 16384 → EReal) (lb : Fin 4096 → EReal)
  (w1 : Fin 512 → Fin 512 → EReal) (b1 : Fin 512 → EReal) (w2 : Fin 4096 → Fin 512 → EReal) (b2 : Fin 4096 → EReal)

/-- Row `p` of the features against column `d` of the embeddings. -/
noncomputable def sumEmb (p : Fin 1024) (d : Fin 512) : EReal := ∑ k : Fin 16384, s p k * e k d

/-- The same with both factors squared entry by entry. -/
noncomputable def sumSq (p : Fin 1024) (d : Fin 512) : EReal := ∑ k : Fin 16384, (s p k * s p k) * (e k d * e k d)

/-- Half the square of the sum less the sum of the squares. -/
noncomputable def inter (p : Fin 1024) (d : Fin 512) : EReal :=
  half * (sumEmb s e p d * sumEmb s e p d - sumSq s e p d)

/-- The first perceptron layer, rectified. -/
noncomputable def hidden (p : Fin 1024) (j : Fin 512) : EReal :=
  max ((∑ i : Fin 512, inter s e p i * w1 j i) + b1 j) 0

/-- The second perceptron layer. -/
noncomputable def interOut (p : Fin 1024) (o : Fin 4096) : EReal :=
  (∑ i : Fin 512, hidden s e w1 b1 p i * w2 o i) + b2 o

/-- The linear term. -/
noncomputable def linear (p : Fin 1024) (o : Fin 4096) : EReal := (∑ k : Fin 16384, s p k * lw o k) + lb o

/-- The layer's result. -/
noncomputable def G (p : Fin 1024) (o : Fin 4096) : EReal :=
  linear s lw lb p o + interOut s e w1 b1 w2 b2 p o

end Layer

/-! ## A sum taken block by block -/

/-- The partial sums of `g` over the first `n` blocks of `K` terms: zero, then each block added to what came before. -/
noncomputable def blockAcc (K : ℕ) (g : ℕ → EReal) : ℕ → EReal
  | 0 => 0
  | n + 1 => blockAcc K g n + ∑ k ∈ Finset.range K, g (n * K + k)

/-- Adding the blocks one after the other gives the sum of the first `n · K` terms. -/
theorem blockAcc_eq (K : ℕ) (g : ℕ → EReal) : ∀ n, blockAcc K g n = ∑ k ∈ Finset.range (n * K), g k
  | 0 => by simp [blockAcc]
  | n + 1 => by
    rw [blockAcc, blockAcc_eq K g n, Nat.succ_mul, Finset.sum_range_add]

/-- A sum over `Fin N` as the sum over the first `N` naturals of the function extended by zero. -/
theorem sum_fin_eq_range {N : ℕ} (f : Fin N → EReal) :
    ∑ k : Fin N, f k = ∑ k ∈ Finset.range N, (if h : k < N then f ⟨k, h⟩ else 0) := by
  rw [Finset.sum_fin_eq_sum_range]

end Cert.Spec
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.LibRowDot.lean ====
import Idealize.ShloMosaic.PureOps.Ideal.Laws
import Idealize.ShloMosaic.Lib.ValueIdx
import Idealize.ShloMosaic.PureOps.Dims

/-!
  A matrix product against the rows of the right operand: a left operand of shape [M, K] and a right operand of shape
  [N, K], both contracted on their axis 1, with no batch axes, give a result of shape [M, N] whose entry (p, q) is the
  sum over k < K of l(p, k) · r(q, k) — the product of the left operand with the transpose of the right. The dimension
  record is a variable and its six lists are hypotheses, so the lemmas apply to every record of this shape.
-/

open scoped BigOperators

namespace Cert.Lib.RowDot

open Idealize.ShloMosaic Idealize.ShloMosaic.ValueIdx

variable {M K N : Nat} (d : DotDims ⟨2, ![M, K]⟩ ⟨2, ![N, K]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 0, the result index's column. -/
theorem rhsIdx_zero_val (hln : d.lhsNonContracting = [0]) (hrn : d.rhsNonContracting = [0])
    (hlb : d.lhsBatch = []) (hrb : d.rhsBatch = [])
    (j : (⟨2, ![M, N]⟩ : Shape).Idx) (k : d.contr.Idx) : (d.rhsIdx j k 0).val = (j 1).val := by
  have hb : (0 : Fin (⟨2, ![N, K]⟩ : Shape).rank) ∉ d.rhsBatch := by rw [hrb]; exact List.not_mem_nil
  have hn : (0 : Fin (⟨2, ![N, K]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a product against the rows of the right operand at entry (p, q), re-indexed by the one
    contraction coordinate, is the sum over k < K of l(p, k) · r(q, k). -/
theorem sum_eq (hlc : d.lhsContracting = [1]) (hrc : d.rhsContracting = [1])
    (hln : d.lhsNonContracting = [0]) (hrn : d.rhsNonContracting = [0])
    (hlb : d.lhsBatch = []) (hrb : d.rhsBatch = [])
    (l : (⟨2, ![M, K]⟩ : Shape).Idx → EReal) (r : (⟨2, ![N, K]⟩ : Shape).Idx → EReal) (p : Fin M) (q : Fin N) :
    (∑ k : d.contr.Idx, l (d.lhsIdx (ix2 p q) k) * r (d.rhsIdx (ix2 p q) k)) = ∑ k : Fin K, l (ix2 p k) * r (ix2 q k) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 q i := by
    funext a
    match a with
    | ⟨0, _⟩ => exact Fin.ext (rhsIdx_zero_val d hln hrn hlb hrb _ _)
    | ⟨1, _⟩ => exact Fin.ext ((d.rhsIdx_val_of_single hrc _ _).trans (contrEquiv1_symm_val d K hr hs i))
  show l _ * r _ = _
  rw [hL, hR]

/-- A product against the rows of the right operand accumulated into the zero splat, read at entry (p, q) at the ideal
    values, is the sum over k < K of l(p, k) · r(q, k). -/
theorem matmul_zero_apply {φ₁ φ₂ : FTy} (hlc : d.lhsContracting = [1]) (hrc : d.rhsContracting = [1])
    (hln : d.lhsNonContracting = [0]) (hrn : d.rhsNonContracting = [0])
    (hlb : d.lhsBatch = []) (hrb : d.rhsBatch = []) (prec : Option ContractPrecision)
    (l : FVec Ideal ⟨2, ![M, K]⟩ φ₁) (r : FVec Ideal ⟨2, ![N, K]⟩ φ₂) (p : Fin M) (q : Fin N) :
    FloatOps.matmul d prec l r (constant (F := Ideal) ⟨2, ![M, N]⟩ .f32 0x00000000#32) (ix2 p q)
      = ∑ k : Fin K, l (ix2 p k) * r (ix2 q k) :=
  (Ideal.matmul_constant_zero_apply d prec l r (ix2 p q)).trans (sum_eq d hlc hrc hln hrn hlb hrb l r p q)

/-- The host's product against the rows of the right operand, read at entry (p, q) at the ideal values, is the sum over
    k < K of l(p, k) · r(q, k), whatever the schedule. -/
theorem dotGeneral_apply {φ₁ φ₂ : FTy} (hlc : d.lhsContracting = [1]) (hrc : d.rhsContracting = [1])
    (hln : d.lhsNonContracting = [0]) (hrn : d.rhsNonContracting = [0])
    (hlb : d.lhsBatch = []) (hrb : d.rhsBatch = []) (prec : Option ContractPrecision) (sched : HostSchedule)
    (l : FVec Ideal ⟨2, ![M, K]⟩ φ₁) (r : FVec Ideal ⟨2, ![N, K]⟩ φ₂) (p : Fin M) (q : Fin N) :
    FloatOps.dotGeneral d prec sched l r (ix2 p q) = ∑ k : Fin K, l (ix2 p k) * r (ix2 q k) :=
  (Ideal.dotGeneral_apply d prec sched l r (ix2 p q)).trans (sum_eq d hlc hrc hln hrn hlb hrb l r p q)

end Cert.Lib.RowDot
-- ==== Proof.KI.Value0.lean ====
import proofs.«126562_j4071628997276_1_alg».proof.Proof.KI.Body0
import proofs.«126562_j4071628997276_1_alg».proof.Proof.Spec
import proofs.«126562_j4071628997276_1_alg».proof.Proof.LibPlainDot
import proofs.«126562_j4071628997276_1_alg».proof.Proof.LibRowDot
import Idealize.ShloMosaic.Lib.Pipeline.Value
import Idealize.ShloMosaic.Lib.ValueIdx
import Idealize.ShloMosaic.Lib.ValueLayout
import Idealize.ShloMosaic.PureOps.Ideal.Laws
/-!
  # What the first kernel region leaves in its output array, entry by entry, at the ideal instance

  The region's grid is 4 × 8; point `t = 8·b + n` reads rows `256·b … 256·b + 255` of the features against the
  `n`-th block of 2048 features of the embeddings. Over a run of eight points the first accumulator adds up, block by
  block, `Σ_k s(p,k)·e(k,d)` and the second `Σ_k s(p,k)²·e(k,d)²`, both from zero; a sum over 8 · 2048 terms taken
  2048 at a time is the whole sum. At the last point of the run the output block is the two-layer perceptron of half
  the square of the first less the second, and the four runs' output blocks tile the 1024 × 4096 array. So entry
  `(p, o)` of the array after the region is `Cert.Spec.interOut` of the six arrays the region reads, at `(p, o)`.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ## The payloads at an index -/

/-- The reset value of the first accumulator is zero everywhere. -/
theorem pay1_apply (j : S256x512.Idx) : (k0_pay1 (F := Ideal)) j = 0 := by
  unfold k0_pay1
  simp only [shapeCast_self]
  show Ideal.ofBits .f32 0x00000000#32 = 0
  exact Ideal.ofBits_zero_f32

/-- So is the second's. -/
theorem pay2_apply (j : S256x512.Idx) : (k0_pay2 (F := Ideal)) j = 0 := by
  unfold k0_pay2
  simp only [shapeCast_self]
  show Ideal.ofBits .f32 0x00000000#32 = 0
  exact Ideal.ofBits_zero_f32

/-- One step of the first accumulator: `s(r,d) + Σ_k x0(r,k)·x1(k,d)`. -/
theorem pay5_apply (x0 : Vec Ideal S256x2048 .bf16) (x1 : Vec Ideal S2048x512 .bf16) (s : Vec Ideal S256x512 .f32) (r : Fin 256) (d : Fin 512) :
    k0_pay5 x0 x1 s (ix2 r d) = s (ix2 r d) + ∑ k : Fin 2048, x0 (ix2 r k) * x1 (ix2 k d) := by
  unfold k0_pay5 k0_pay3 k0_pay4
  simp only [shapeCast_self]
  rw [addf_apply]
  exact congrArg (s (ix2 r d) + ·) (Cert.Lib.PlainDot.matmul_zero_apply dot_S256x2048_S2048x512_S256x512_1_0_0_1_n_n rfl rfl rfl rfl rfl rfl none x0 x1 r d)

/-- One step of the second: the same with both factors squared entry by entry. -/
theorem pay6_apply (x0 : Vec Ideal S256x2048 .bf16) (x1 : Vec Ideal S2048x512 .bf16) (s : Vec Ideal S256x512 .f32) (r : Fin 256) (d : Fin 512) :
    k0_pay6 x0 x1 s (ix2 r d) = s (ix2 r d) + ∑ k : Fin 2048, (x0 (ix2 r k) * x0 (ix2 r k)) * (x1 (ix2 k d) * x1 (ix2 k d)) := by
  unfold k0_pay6 k0_pay3 k0_pay4
  simp only [shapeCast_self]
  rw [addf_apply]
  exact congrArg (s (ix2 r d) + ·) (Cert.Lib.PlainDot.matmul_zero_apply dot_S256x2048_S2048x512_S256x512_1_0_0_1_n_n rfl rfl rfl rfl rfl rfl none (mulf x0 x0) (mulf x1 x1) r d)

/-- The output block from the two accumulators: half of (square of the first less the second), through the first layer
    with its bias, rectified, through the second layer with its bias. Both layers contract the weights' axis 1. -/
theorem pay7_apply (sa sb : Vec Ideal S256x512 .f32) (w1 : Vec Ideal S512x512 .bf16) (b1 : Vec Ideal S512 .f32)
    (w2 : Vec Ideal S4096x512 .bf16) (b2 : Vec Ideal S4096 .f32) (r : Fin 256) (o : Fin 4096) :
    k0_pay7 sa sb w1 b1 w2 b2 (ix2 r o)
      = (∑ i : Fin 512, max ((∑ i' : Fin 512, (Cert.Spec.half * (sa (ix2 r i') * sa (ix2 r i') - sb (ix2 r i'))) * w1 (ix2 i i')) + b1 (ix1 i)) 0 * w2 (ix2 o i))
          + b2 (ix1 o) := by
  have h1 := fun (l : FVec Ideal S256x512 .bf16) (rr : FVec Ideal S512x512 .bf16) (p : Fin 256) (q : Fin 512) =>
    Cert.Lib.RowDot.matmul_zero_apply dot_S256x512_S512x512_S256x512_1_1_0_0_n_n rfl rfl rfl rfl rfl rfl none l rr p q
  have h2 := fun (l : FVec Ideal S256x512 .bf16) (rr : FVec Ideal S4096x512 .bf16) (p : Fin 256) (q : Fin 4096) =>
    Cert.Lib.RowDot.matmul_zero_apply dot_S256x512_S4096x512_S256x4096_1_1_0_0_n_n rfl rfl rfl rfl rfl rfl none l rr p q
  unfold k0_pay7
  simp only [shapeCast_self]
  rw [addf_apply]
  refine congr (congrArg HAdd.hAdd ((h2 _ _ r o).trans ?_)) ?_
  · refine Finset.sum_congr rfl fun i _ => ?_
    refine congrArg (· * w2 (ix2 o i)) ?_
    rw [truncf_apply, maximumf_apply, addf_apply]
    refine congr (congrArg max (congr (congrArg HAdd.hAdd ((h1 _ _ r i).trans ?_)) ?_)) ?_
    · rfl
    · rw [broadcastTo_1b_ab_apply, shapeCast_a_1a_apply]
    · exact Ideal.ofBits_zero_f32
  · rw [broadcastTo_1b_ab_apply, shapeCast_a_1a_apply]

/-! ## A sum of 16384 terms, 2048 at a time -/

/-- A function on the first 16384 naturals, extended by zero. -/
def ext0 (f : Fin 16384 → EReal) : ℕ → EReal := fun k => if h : k < 16384 then f ⟨k, h⟩ else 0

theorem ext0_of_lt (f : Fin 16384 → EReal) (k : ℕ) (h : k < 16384) : ext0 f k = f ⟨k, h⟩ := dif_pos h

/-- Eight blocks of 2048 terms, each added to what came before, from zero: the whole sum. -/
theorem blockAcc_full (f : Fin 16384 → EReal) : Cert.Spec.blockAcc 2048 (ext0 f) 8 = ∑ k, f k := by
  rw [Cert.Spec.blockAcc_eq, Cert.Spec.sum_fin_eq_range f]
  rfl

/-- One more block: the partial sum over `n` blocks plus a sum over `Fin 2048` whose `k`-th term is the term
    `n · 2048 + k`. -/
theorem blockAcc_step (g : ℕ → EReal) (n : ℕ) (a : EReal) (f : Fin 2048 → EReal) (ha : a = Cert.Spec.blockAcc 2048 g n)
    (hf : ∀ k : Fin 2048, f k = g (n * 2048 + k.val)) : a + ∑ k, f k = Cert.Spec.blockAcc 2048 g (n + 1) := by
  show _ = Cert.Spec.blockAcc 2048 g n + ∑ k ∈ Finset.range 2048, g (n * 2048 + k)
  rw [ha, ← Fin.sum_univ_eq_sum_range (fun k => g (n * 2048 + k)) 2048]
  exact congrArg _ (Finset.sum_congr rfl fun k _ => hf k)

/-! ## The index maps, decided over the grid -/

theorem idx0 : ∀ t : Fin cfg0.N, win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val / 8 ∧ win0_6.index t (1 : Fin 2) = 0 :=
  (by decide +kernel : ∀ t : Fin grid0.N, _)

section Region0
variable (V : (c : Dev nD) → (b : Ref sig .tc) → Buf (Elt Ideal) ((c : Thread nD τ).loc b))

/-! ## The six arrays the region reads, as functions of plain coordinates -/

abbrev sF (c : Dev nD) : Fin 1024 → Fin 16384 → EReal := fun p k => V c main_v0 (ix2 p k)
abbrev eF (c : Dev nD) : Fin 16384 → Fin 512 → EReal := fun k d => V c main_v1 (ix2 k d)
abbrev w1F (c : Dev nD) : Fin 512 → Fin 512 → EReal := fun j i => V c main_v3 (ix2 j i)
abbrev b1F (c : Dev nD) : Fin 512 → EReal := fun j => V c main_arg5 (ix1 j)
abbrev w2F (c : Dev nD) : Fin 4096 → Fin 512 → EReal := fun o i => V c main_v4 (ix2 o i)
abbrev b2F (c : Dev nD) : Fin 4096 → EReal := fun o => V c main_arg7 (ix1 o)

/-! ## Each input block, read where its rectangle says -/

/-- The features' block at point `t`: rows from `256 · (t / 8)`, columns from `2048 · (t mod 8)`. -/
theorem blk0_apply (c : Dev nD) (t : Fin cfg0.N) (r : Fin 256) (k : Fin 2048) (p : Fin 1024) (q : Fin 16384)
    (hp : p.val = t.val / 8 * 256 + r.val) (hq : q.val = t.val % 8 * 2048 + k.val) :
    (iblk0 (F := Ideal) V c 0 t : Vec Ideal S256x2048 .bf16) (ix2 r k) = sF V c p q := by
  obtain ⟨e0, e1, -⟩ := idx0 t
  unfold iblk0
  rw [View.read_apply]
  show V c main_v0 _ = V c main_v0 _
  congr 1
  funext a
  apply Fin.ext
  match a with
  | ⟨0, _⟩ => show win0_0.index t (0 : Fin 2) * 256 + 1 * r.val = p.val; omega
  | ⟨1, _⟩ => show win0_0.index t (1 : Fin 2) * 2048 + 1 * k.val = q.val; omega

/-- The embeddings' block at point `t`: rows from `2048 · (t mod 8)`, all columns. -/
theorem blk1_apply (c : Dev nD) (t : Fin cfg0.N) (k : Fin 2048) (d : Fin 512) (q : Fin 16384)
    (hq : q.val = t.val % 8 * 2048 + k.val) :
    (iblk0 (F := Ideal) V c 1 t : Vec Ideal S2048x512 .bf16) (ix2 k d) = eF V c q d := by
  obtain ⟨-, -, e0, e1, -⟩ := idx0 t
  unfold iblk0
  rw [View.read_apply]
  show V c main_v1 _ = V c main_v1 _
  congr 1
  funext a
  apply Fin.ext
  match a with
  | ⟨0, _⟩ => show win0_1.index t (0 : Fin 2) * 2048 + 1 * k.val = q.val; omega
  | ⟨1, _⟩ => show win0_1.index t (1 : Fin 2) * 512 + 1 * d.val = d.val; omega

/-- The first layer's weights, whole at every point. -/
theorem blk2_apply (c : Dev nD) (t : Fin cfg0.N) (j i : Fin 512) :
    (iblk0 (F := Ideal) V c 2 t : Vec Ideal S512x512 .bf16) (ix2 j i) = w1F V c j i := by
  obtain ⟨-, -, -, -, e0, e1, -⟩ := idx0 t
  unfold iblk0
  rw [View.read_apply]
  show V c main_v3 _ = V c main_v3 _
  congr 1
  funext a
  apply Fin.ext
  match a with
  | ⟨0, _⟩ => show win0_2.index t (0 : Fin 2) * 512 + 1 * j.val = j.val; omega
  | ⟨1, _⟩ => show win0_2.index t (1 : Fin 2) * 512 + 1 * i.val = i.val; omega

/-- The first bias, whole. -/
theorem blk3_apply (c : Dev nD) (t : Fin cfg0.N) (j : Fin 512) :
    (iblk0 (F := Ideal) V c 3 t : Vec Ideal S512 .f32) (ix1 j) = b1F V c j := by
  obtain ⟨-, -, -, -, -, -, e0, -⟩ := idx0 t
  unfold iblk0
  rw [View.read_apply]
  show V c main_arg5 _ = V c main_arg5 _
  congr 1
  funext a
  apply Fin.ext
  match a with
  | ⟨0, _⟩ => show win0_3.index t (0 : Fin 1) * 512 + 1 * j.val = j.val; omega

/-- The second layer's weights, whole. -/
theorem blk4_apply (c : Dev nD) (t : Fin cfg0.N) (o : Fin 4096) (i : Fin 512) :
    (iblk0 (F := Ideal) V c 4 t : Vec Ideal S4096x512 .bf16) (ix2 o i) = w2F V c o i := by
  obtain ⟨-, -, -, -, -, -, -, e0, e1, -⟩ := idx0 t
  unfold iblk0
  rw [View.read_apply]
  show V c main_v4 _ = V c main_v4 _
  congr 1
  funext a
  apply Fin.ext
  match a with
  | ⟨0, _⟩ => show win0_4.index t (0 : Fin 2) * 4096 + 1 * o.val = o.val; omega
  | ⟨1, _⟩ => show win0_4.index t (1 : Fin 2) * 512 + 1 * i.val = i.val; omega

/-- The second bias, whole. -/
theorem blk5_apply (c : Dev nD) (t : Fin cfg0.N) (o : Fin 4096) :
    (iblk0 (F := Ideal) V c 5 t : Vec Ideal S4096 .f32) (ix1 o) = b2F V c o := by
  obtain ⟨-, -, -, -, -, -, -, -, -, e0, -⟩ := idx0 t
  unfold iblk0
  rw [View.read_apply]
  show V c main_arg7 _ = V c main_arg7 _
  congr 1
  funext a
  apply Fin.ext
  match a with
  | ⟨0, _⟩ => show win0_5.index t (0 : Fin 1) * 4096 + 1 * o.val = o.val; omega

/-! ## The two accumulators over a run of eight points -/

theorem acc0a_idx (c : Dev nD) {n m : ℕ} (hn : n < cfg0.N) (hm : m < cfg0.N) (e : n = m) :
    acc0a (F := Ideal) V c n hn = acc0a (F := Ideal) V c m hm := by
  subst e; rfl

theorem acc0b_idx (c : Dev nD) {n m : ℕ} (hn : n < cfg0.N) (hm : m < cfg0.N) (e : n = m) :
    acc0b (F := Ideal) V c n hn = acc0b (F := Ideal) V c m hm := by
  subst e; rfl

/-- The terms of `Σ_k s(p,k)·e(k,d)` and of `Σ_k s(p,k)²·e(k,d)²`. -/
abbrev fA (c : Dev nD) (p : Fin 1024) (d : Fin 512) : Fin 16384 → EReal := fun k => sF V c p k * eF V c k d
abbrev fB (c : Dev nD) (p : Fin 1024) (d : Fin 512) : Fin 16384 → EReal := fun k => (sF V c p k * sF V c p k) * (eF V c k d * eF V c k d)

/-- At point `8·b + n` the `k`-th product of the two blocks is term `n · 2048 + k` of the first sum, -/
theorem termA (c : Dev nD) (t : Fin cfg0.N) (b n : ℕ) (ht : t.val = 8 * b + n) (hn : n < 8) (r : Fin 256) (d : Fin 512)
    (p : Fin 1024) (hp : p.val = b * 256 + r.val) (k : Fin 2048)
    (x0 : Vec Ideal S256x2048 .bf16) (x1 : Vec Ideal S2048x512 .bf16) (h0 : x0 = iblk0 (F := Ideal) V c 0 t) (h1 : x1 = iblk0 (F := Ideal) V c 1 t) :
    x0 (ix2 r k) * x1 (ix2 k d) = ext0 (fA V c p d) (n * 2048 + k.val) := by
  have hk : n * 2048 + k.val < 16384 := by have := k.isLt; omega
  subst h0 h1
  rw [ext0_of_lt _ _ hk, blk0_apply V c t r k p ⟨n * 2048 + k.val, hk⟩ (by omega) (by show n * 2048 + k.val = _; omega),
    blk1_apply V c t k d ⟨n * 2048 + k.val, hk⟩ (by show n * 2048 + k.val = _; omega)]

/-- and the product of their squares is that term of the second. -/
theorem termB (c : Dev nD) (t : Fin cfg0.N) (b n : ℕ) (ht : t.val = 8 * b + n) (hn : n < 8) (r : Fin 256) (d : Fin 512)
    (p : Fin 1024) (hp : p.val = b * 256 + r.val) (k : Fin 2048)
    (x0 : Vec Ideal S256x2048 .bf16) (x1 : Vec Ideal S2048x512 .bf16) (h0 : x0 = iblk0 (F := Ideal) V c 0 t) (h1 : x1 = iblk0 (F := Ideal) V c 1 t) :
    (x0 (ix2 r k) * x0 (ix2 r k)) * (x1 (ix2 k d) * x1 (ix2 k d)) = ext0 (fB V c p d) (n * 2048 + k.val) := by
  have hk : n * 2048 + k.val < 16384 := by have := k.isLt; omega
  subst h0 h1
  rw [ext0_of_lt _ _ hk, blk0_apply V c t r k p ⟨n * 2048 + k.val, hk⟩ (by omega) (by show n * 2048 + k.val = _; omega),
    blk1_apply V c t k d ⟨n * 2048 + k.val, hk⟩ (by show n * 2048 + k.val = _; omega)]

/-- After point `8·b + n` the first accumulator holds, at row `r` and column `d`, the first `n + 1` blocks of the sum
    for row `256·b + r`. -/
theorem accA_eq (c : Dev nD) (b : ℕ) (r : Fin 256) (d : Fin 512) (p : Fin 1024) (hp : p.val = b * 256 + r.val) :
    ∀ (n : ℕ) (hn : n < 8) (h : 8 * b + n < cfg0.N),
      acc0a (F := Ideal) V c (8 * b + n) h (ix2 r d) = Cert.Spec.blockAcc 2048 (ext0 (fA V c p d)) (n + 1)
  | 0, hn, h => by
    have hm : (⟨8 * b + 0, h⟩ : Fin cfg0.N).val % 8 = 0 := by show (8 * b + 0) % 8 = 0; omega
    refine (congrFun (acc0a_first V c ⟨8 * b + 0, h⟩ hm) (ix2 r d)).trans ?_
    rw [pay5_apply]
    exact blockAcc_step _ 0 _ _ (pay1_apply _) (fun k => termA V c ⟨8 * b + 0, h⟩ b 0 rfl hn r d p hp k _ _ rfl rfl)
  | n + 1, hn, h => by
    have hm : ¬ (⟨8 * b + (n + 1), h⟩ : Fin cfg0.N).val % 8 = 0 := by show ¬ (8 * b + (n + 1)) % 8 = 0; omega
    refine (congrFun (acc0a_next V c ⟨8 * b + (n + 1), h⟩ hm) (ix2 r d)).trans ?_
    rw [pay5_apply]
    refine blockAcc_step _ (n + 1) _ _ ?_ (fun k => termA V c ⟨8 * b + (n + 1), h⟩ b (n + 1) rfl hn r d p hp k _ _ rfl rfl)
    rw [acc0a_idx V c _ (show 8 * b + n < cfg0.N by omega) (show 8 * b + (n + 1) - 1 = 8 * b + n by omega)]
    exact accA_eq c b r d p hp n (by omega) _

/-- The same for the second accumulator. -/
theorem accB_eq (c : Dev nD) (b : ℕ) (r : Fin 256) (d : Fin 512) (p : Fin 1024) (hp : p.val = b * 256 + r.val) :
    ∀ (n : ℕ) (hn : n < 8) (h : 8 * b + n < cfg0.N),
      acc0b (F := Ideal) V c (8 * b + n) h (ix2 r d) = Cert.Spec.blockAcc 2048 (ext0 (fB V c p d)) (n + 1)
  | 0, hn, h => by
    have hm : (⟨8 * b + 0, h⟩ : Fin cfg0.N).val % 8 = 0 := by show (8 * b + 0) % 8 = 0; omega
    refine (congrFun (acc0b_first V c ⟨8 * b + 0, h⟩ hm) (ix2 r d)).trans ?_
    rw [pay6_apply]
    exact blockAcc_step _ 0 _ _ (pay2_apply _) (fun k => termB V c ⟨8 * b + 0, h⟩ b 0 rfl hn r d p hp k _ _ rfl rfl)
  | n + 1, hn, h => by
    have hm : ¬ (⟨8 * b + (n + 1), h⟩ : Fin cfg0.N).val % 8 = 0 := by show ¬ (8 * b + (n + 1)) % 8 = 0; omega
    refine (congrFun (acc0b_next V c ⟨8 * b + (n + 1), h⟩ hm) (ix2 r d)).trans ?_
    rw [pay6_apply]
    refine blockAcc_step _ (n + 1) _ _ ?_ (fun k => termB V c ⟨8 * b + (n + 1), h⟩ b (n + 1) rfl hn r d p hp k _ _ rfl rfl)
    rw [acc0b_idx V c _ (show 8 * b + n < cfg0.N by omega) (show 8 * b + (n + 1) - 1 = 8 * b + n by omega)]
    exact accB_eq c b r d p hp n (by omega) _

/-- At the last point of a run the first accumulator holds the whole sum, -/
theorem accA_flush (c : Dev nD) (t : Fin cfg0.N) (h7 : t.val % 8 = 7) (r : Fin 256) (d : Fin 512) (p : Fin 1024)
    (hp : p.val = t.val / 8 * 256 + r.val) :
    acc0a (F := Ideal) V c t.val t.isLt (ix2 r d) = Cert.Spec.sumEmb (sF V c) (eF V c) p d := by
  have ht : t.val = 8 * (t.val / 8) + 7 := by omega
  have hlt : 8 * (t.val / 8) + 7 < cfg0.N := by have := t.isLt; omega
  rw [acc0a_idx V c t.isLt hlt ht, accA_eq V c (t.val / 8) r d p hp 7 (by omega) hlt, blockAcc_full]
  rfl

/-- and the second the whole sum of the squares' products. -/
theorem accB_flush (c : Dev nD) (t : Fin cfg0.N) (h7 : t.val % 8 = 7) (r : Fin 256) (d : Fin 512) (p : Fin 1024)
    (hp : p.val = t.val / 8 * 256 + r.val) :
    acc0b (F := Ideal) V c t.val t.isLt (ix2 r d) = Cert.Spec.sumSq (sF V c) (eF V c) p d := by
  have ht : t.val = 8 * (t.val / 8) + 7 := by omega
  have hlt : 8 * (t.val / 8) + 7 < cfg0.N := by have := t.isLt; omega
  rw [acc0b_idx V c t.isLt hlt ht, accB_eq V c (t.val / 8) r d p hp 7 (by omega) hlt, blockAcc_full]
  rfl

/-! ## The output block at the last point of a run -/

theorem out_apply (c : Dev nD) (t : Fin cfg0.N) (h7 : t.val % 8 = 7) (r : Fin 256) (o : Fin 4096) (p : Fin 1024)
    (hp : p.val = t.val / 8 * 256 + r.val) :
    k0_pay7 (acc0a (F := Ideal) V c t.val t.isLt) (acc0b (F := Ideal) V c t.val t.isLt) (iblk0 V c 2 t) (iblk0 V c 3 t) (iblk0 V c 4 t) (iblk0 V c 5 t) (ix2 r o)
      = Cert.Spec.interOut (sF V c) (eF V c) (w1F V c) (b1F V c) (w2F V c) (b2F V c) p o := by
  rw [pay7_apply]
  simp only [accA_flush V c t h7 r _ p hp, accB_flush V c t h7 r _ p hp, blk2_apply, blk3_apply, blk4_apply, blk5_apply]
  rfl

/-! ## From the blocks to the array -/

/-- What the output array holds after the region, as one function of its index. -/
abbrev G0 (c : Dev nD) : S1024x4096.Idx → EReal := fun i =>
  Cert.Spec.interOut (sF V c) (eF V c) (w1F V c) (b1F V c) (w2F V c) (b2F V c) ⟨(i 0).val, idx2_lt0 i⟩ ⟨(i 1).val, idx2_lt1 i⟩

/-- What the last point of a run writes back is its block of that function: rows from `256 · (t / 8)`, all columns. -/
theorem flushed0_eq (c : Dev nD) (t : Fin cfg0.N) (hf : (cfg0.win 6).flush t = true) :
    (dat0 (F := Ideal) V c).flushed 6 t = ((cfg0.win 6).blk t).view.read (Elt Ideal) (G0 V c) := by
  have h7 : t.val % 8 = 7 := (flush0_6 t).mp hf
  have hN : cfg0.N = 32 := N_0
  have htl := t.isLt
  obtain ⟨-, -, -, -, -, -, -, -, -, -, e0, e1⟩ := idx0 t
  show (cfg0.win 6).cut (grid0.coords t) ((dat0 (F := Ideal) V c).after 6 t) = _
  rw [after0_6]
  refine funext fun (y : S256x4096.Idx) => ?_
  obtain ⟨r, o, rfl⟩ : ∃ (r : Fin 256) (o : Fin 4096), y = ix2 r o := ⟨y 0, y 1, eq_ix2 y⟩
  rw [View.read_apply]
  have hr := r.isLt
  refine (out_apply V c t h7 r o ⟨t.val / 8 * 256 + r.val, by omega⟩ rfl).trans ?_
  show _ = G0 V c (((cfg0.win 6).blk t).view.emb (ix2 r o))
  have key : ∀ (p1 p2 : Fin 1024) (o1 o2 : Fin 4096), p1 = p2 → o1 = o2 →
      Cert.Spec.interOut (sF V c) (eF V c) (w1F V c) (b1F V c) (w2F V c) (b2F V c) p1 o1
        = Cert.Spec.interOut (sF V c) (eF V c) (w1F V c) (b1F V c) (w2F V c) (b2F V c) p2 o2 := by
    rintro _ _ _ _ rfl rfl; rfl
  refine key _ _ _ _ (Fin.ext ?_) (Fin.ext ?_)
  · show t.val / 8 * 256 + r.val = win0_6.index t (0 : Fin 2) * 256 + 1 * r.val
    omega
  · show o.val = win0_6.index t (1 : Fin 2) * 4096 + 1 * o.val
    omega

end Region0

/-- THE FIRST REGION'S OUTPUT: entry `(p, o)` of its output array after the region is the perceptron of the pairwise
    interaction of the arrays the region finds, at `(p, o)`. The entry is written at the last point of row block
    `p / 256`'s run, point `(p / 256) · 8 + 7`. -/
theorem final0 (V : (c : Dev nD) → (b : Ref sig .tc) → Buf (Elt Ideal) ((c : Thread nD τ).loc b)) (c : Dev nD) (p : Fin 1024) (o : Fin 4096) :
    (dat0 (F := Ideal) V c).arrAt 6 cfg0.N (ix2 p o)
      = Cert.Spec.interOut (fun p k => V c main_v0 (ix2 p k)) (fun k d => V c main_v1 (ix2 k d)) (fun j i => V c main_v3 (ix2 j i)) (fun j => V c main_arg5 (ix1 j))
          (fun o i => V c main_v4 (ix2 o i)) (fun o => V c main_arg7 (ix1 o)) p o := by
  have hp := p.isLt
  have hN : cfg0.N = 32 := N_0
  obtain ⟨t, ht⟩ : ∃ t : Fin cfg0.N, t.val = p.val / 256 * 8 + 7 := ⟨⟨p.val / 256 * 8 + 7, by omega⟩, rfl⟩
  have h7 : t.val % 8 = 7 := by omega
  have hf : (cfg0.win 6).flush t = true := (flush0_6 t).mpr h7
  obtain ⟨-, -, -, -, -, -, -, -, -, -, e0, e1⟩ := idx0 t
  have hi : (ix2 p o : S1024x4096.Idx) = ((cfg0.win 6).blk t).view.emb (ix2 (⟨p.val % 256, Nat.mod_lt _ (by decide)⟩ : Fin 256) o) := by
    funext a
    apply Fin.ext
    match a with
    | ⟨0, _⟩ => show p.val = win0_6.index t (0 : Fin 2) * 256 + 1 * (p.val % 256); omega
    | ⟨1, _⟩ => show o.val = win0_6.index t (1 : Fin 2) * 4096 + 1 * o.val; omega
  have hmem : (ix2 p o : S1024x4096.Idx) ∈ ((cfg0.win 6).blk t).view.set := by
    rw [hi]; exact View.emb_mem_set _ _
  exact (dat0 (F := Ideal) V c).arrAt_apply_of_mem 6 (G0 V c) (flushed0_eq V c) cfg0.N t (ix2 p o) t.isLt hf hmem

end Cert.KernelIdeal.Hand
end
-- ==== Proof.KI.Value1.lean ====
import proofs.«126562_j4071628997276_1_alg».proof.Proof.KI.Body1
import proofs.«126562_j4071628997276_1_alg».proof.Proof.Spec
import proofs.«126562_j4071628997276_1_alg».proof.Proof.LibRowDot
import Idealize.ShloMosaic.Lib.Pipeline.Value
import Idealize.ShloMosaic.Lib.ValueIdx
import Idealize.ShloMosaic.Lib.ValueLayout
import Idealize.ShloMosaic.PureOps.Ideal.Laws

/-!
  # What the second kernel region leaves in its output array, at the ideal instance, entry by entry

  The region's grid is 4 × 4 × 4 with the last coordinate running fastest, so point t = (i·4 + j)·4 + k works on rows
  256·i … 256·i + 255 of the features, rows 1024·j … 1024·j + 1023 of the linear weights and the k-th quarter of the
  16384 features. Over the four points of a run the accumulator goes from zero through the four partial products; at the
  last point of the run the output block (i, j) is written as accumulator + bias + interaction block. Read at an entry
  over the extended reals this is the full product of the features' row against the weights' row, plus the bias, plus
  the interaction term; the sixteen output blocks are disjoint and fill the array.
-/

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-- The second region's result at entry (p, o): the features' row p against the linear weights' row o over all 16384 features, plus the bias, plus the interaction term. -/
noncomputable def lin1 (a : FVec Ideal S1024x16384 .bf16) (b : FVec Ideal S4096x16384 .bf16) (lb : FVec Ideal S4096 .f32) (io : FVec Ideal S1024x4096 .f32) (p : Fin 1024) (o : Fin 4096) : EReal :=
  ((∑ k : Fin 16384, a (ix2 p k) * b (ix2 o k)) + lb (ix1 o)) + io (ix2 p o)

/-- One term of the product of the features' row p against the weights' row o. -/
def linTerm1 (a : FVec Ideal S1024x16384 .bf16) (b : FVec Ideal S4096x16384 .bf16) (p : Fin 1024) (o : Fin 4096) (k : Fin 16384) : EReal :=
  a (ix2 p k) * b (ix2 o k)

/-- Row r of a block of the features against row q of a block of the weights. -/
def rowDot1 (a : Vec Ideal S256x4096 .bf16) (b : Vec Ideal S1024x4096 .bf16) (r : Fin 256) (q : Fin 1024) : EReal :=
  ∑ kk : Fin 4096, a (ix2 r kk) * b (ix2 q kk)

/-! ## The three payloads at an entry, over the extended reals -/

/-- The reset value is zero everywhere. -/
theorem k1_pay1_apply (r : Fin 256) (q : Fin 1024) : k1_pay1 (F := Ideal) (ix2 r q) = 0 := by
  unfold k1_pay1
  simp only [shapeCast_self]
  show Ideal.ofBits .f32 0x00000000#32 = 0
  exact Ideal.ofBits_zero_f32

/-- The update adds, at entry (r, q), row r of the first block against row q of the second. -/
theorem k1_pay2_apply (s : Vec Ideal S256x1024 .f32) (a : Vec Ideal S256x4096 .bf16) (b : Vec Ideal S1024x4096 .bf16)
    (r : Fin 256) (q : Fin 1024) :
    k1_pay2 (F := Ideal) s a b (ix2 r q) = s (ix2 r q) + rowDot1 a b r q := by
  unfold k1_pay2
  simp only [shapeCast_self, matmul]
  show s (ix2 r q) + FloatOps.matmul _ none a b (constant (F := Ideal) S256x1024 .f32 0x00000000#32) (ix2 r q) = _
  exact congrArg (s (ix2 r q) + ·) (Cert.Lib.RowDot.matmul_zero_apply dot_S256x4096_S1024x4096_S256x1024_1_1_0_0_n_n rfl rfl rfl rfl rfl rfl none a b r q)

/-- The output block is the accumulator plus the bias along the columns plus the interaction block. -/
theorem k1_pay3_apply (s : Vec Ideal S256x1024 .f32) (lb : Vec Ideal S1024 .f32) (io : Vec Ideal S256x1024 .f32)
    (r : Fin 256) (q : Fin 1024) :
    k1_pay3 (F := Ideal) s lb io (ix2 r q) = (s (ix2 r q) + lb (ix1 q)) + io (ix2 r q) := by
  unfold k1_pay3
  simp only [shapeCast_self]
  show (s (ix2 r q) + broadcastTo S256x1024 (shapeCast S1x1024 lb shapeCasts_S1024_S1x1024) broadcasts_S1x1024_S256x1024 (ix2 r q)) + io (ix2 r q) = _
  rw [broadcastTo_1b_ab_apply, shapeCast_a_1a_apply]

/-! ## Where each window's block sits, at every point of the grid -/

/-- With t = (i·4 + j)·4 + k: the features' block is (i, k), the weights' block (j, k), the bias' block j, the
    interaction term's and the output's block (i, j). -/
theorem idx_facts1 : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 1) = t.val / 4 % 4
    ∧ win1_3.index t (0 : Fin 2) = t.val / 16 ∧ win1_3.index t (1 : Fin 2) = t.val / 4 % 4
    ∧ win1_4.index t (0 : Fin 2) = t.val / 16 ∧ win1_4.index t (1 : Fin 2) = t.val / 4 % 4 :=
  (by decide +kernel : ∀ t : Fin grid1.N, _)

section Blocks
variable (V : (c : Dev nD) → (b : Ref sig .tc) → Buf (Elt Ideal) ((c : Thread nD τ).loc b)) (c : Dev nD)

/-- The features' block at point t, entry (r, kk): the array at row (t / 16)·256 + r, column (t mod 4)·4096 + kk. -/
theorem iblk1_0_apply (t : Fin cfg1.N) (r : Fin 256) (kk : Fin 4096) (P : Fin 1024) (Kc : Fin 16384)
    (hP : P.val = t.val / 16 * 256 + r.val) (hK : Kc.val = t.val % 4 * 4096 + kk.val) :
    (iblk1 (F := Ideal) V c 0 t : Vec Ideal S256x4096 .bf16) (ix2 r kk) = V c main_v0 (ix2 P Kc) := by
  obtain ⟨e0, e1, -⟩ := idx_facts1 t
  unfold iblk1
  show V c main_v0 (((cfg1.win 0).blk t).view.emb (ix2 r kk)) = V c main_v0 (ix2 P Kc)
  congr 1
  funext a; apply Fin.ext
  match a with
  | ⟨0, _⟩ => show win1_0.index t (0 : Fin 2) * 256 + 1 * r.val = P.val; rw [e0, hP]; omega
  | ⟨1, _⟩ => show win1_0.index t (1 : Fin 2) * 4096 + 1 * kk.val = Kc.val; rw [e1, hK]; omega

/-- The weights' block at point t, entry (q, kk): the array at row (t / 4 mod 4)·1024 + q, column (t mod 4)·4096 + kk. -/
theorem iblk1_1_apply (t : Fin cfg1.N) (q : Fin 1024) (kk : Fin 4096) (O : Fin 4096) (Kc : Fin 16384)
    (hO : O.val = t.val / 4 % 4 * 1024 + q.val) (hK : Kc.val = t.val % 4 * 4096 + kk.val) :
    (iblk1 (F := Ideal) V c 1 t : Vec Ideal S1024x4096 .bf16) (ix2 q kk) = V c main_v2 (ix2 O Kc) := by
  obtain ⟨-, -, e0, e1, -⟩ := idx_facts1 t
  unfold iblk1
  show V c main_v2 (((cfg1.win 1).blk t).view.emb (ix2 q kk)) = V c main_v2 (ix2 O Kc)
  congr 1
  funext a; apply Fin.ext
  match a with
  | ⟨0, _⟩ => show win1_1.index t (0 : Fin 2) * 1024 + 1 * q.val = O.val; rw [e0, hO]; omega
  | ⟨1, _⟩ => show win1_1.index t (1 : Fin 2) * 4096 + 1 * kk.val = Kc.val; rw [e1, hK]; omega

/-- The bias' block at point t, entry q: the array at (t / 4 mod 4)·1024 + q. -/
theorem iblk1_2_apply (t : Fin cfg1.N) (q : Fin 1024) (O : Fin 4096)
    (hO : O.val = t.val / 4 % 4 * 1024 + q.val) :
    (iblk1 (F := Ideal) V c 2 t : Vec Ideal S1024 .f32) (ix1 q) = V c main_arg3 (ix1 O) := by
  obtain ⟨-, -, -, -, e0, -⟩ := idx_facts1 t
  unfold iblk1
  show V c main_arg3 (((cfg1.win 2).blk t).view.emb (ix1 q)) = V c main_arg3 (ix1 O)
  congr 1
  funext a; apply Fin.ext
  match a with
  | ⟨0, _⟩ => show win1_2.index t (0 : Fin 1) * 1024 + 1 * q.val = O.val; rw [e0, hO]; omega

/-- The interaction term's block at point t, entry (r, q): the array at row (t / 16)·256 + r, column (t / 4 mod 4)·1024 + q. -/
theorem iblk1_3_apply (t : Fin cfg1.N) (r : Fin 256) (q : Fin 1024) (P : Fin 1024) (O : Fin 4096)
    (hP : P.val = t.val / 16 * 256 + r.val) (hO : O.val = t.val / 4 % 4 * 1024 + q.val) :
    (iblk1 (F := Ideal) V c 3 t : Vec Ideal S256x1024 .f32) (ix2 r q) = V c main_v5 (ix2 P O) := by
  obtain ⟨-, -, -, -, -, e0, e1, -⟩ := idx_facts1 t
  unfold iblk1
  show V c main_v5 (((cfg1.win 3).blk t).view.emb (ix2 r q)) = V c main_v5 (ix2 P O)
  congr 1
  funext a; apply Fin.ext
  match a with
  | ⟨0, _⟩ => show win1_3.index t (0 : Fin 2) * 256 + 1 * r.val = P.val; rw [e0, hP]; omega
  | ⟨1, _⟩ => show win1_3.index t (1 : Fin 2) * 1024 + 1 * q.val = O.val; rw [e1, hO]; omega

end Blocks

/-! ## A sum over 16384 terms taken 4096 at a time -/

private theorem lt16384 (s : ℕ) (hs : s < 4) (kk : Fin 4096) : s * 4096 + kk.val < 16384 := by
  have := kk.isLt; omega

/-- One block of 4096 consecutive terms, as a sum over the naturals below 4096 of the function extended by zero. -/
private theorem block_sum (f : Fin 16384 → EReal) (s : ℕ) (hs : s < 4) :
    ∑ k ∈ Finset.range 4096, (if h : s * 4096 + k < 16384 then f ⟨s * 4096 + k, h⟩ else 0)
      = ∑ kk : Fin 4096, f ⟨s * 4096 + kk.val, lt16384 s hs kk⟩ := by
  rw [Finset.sum_range]
  refine Finset.sum_congr rfl fun kk _ => ?_
  rw [dif_pos (lt16384 s hs kk)]

/-- Zero, then the four blocks added one after the other, is the whole sum. -/
private theorem sum_four_blocks (f : Fin 16384 → EReal) :
    (((0 + ∑ kk : Fin 4096, f ⟨0 * 4096 + kk.val, lt16384 0 (by omega) kk⟩)
        + ∑ kk : Fin 4096, f ⟨1 * 4096 + kk.val, lt16384 1 (by omega) kk⟩)
        + ∑ kk : Fin 4096, f ⟨2 * 4096 + kk.val, lt16384 2 (by omega) kk⟩)
        + ∑ kk : Fin 4096, f ⟨3 * 4096 + kk.val, lt16384 3 (by omega) kk⟩
      = ∑ k : Fin 16384, f k := by
  rw [Cert.Spec.sum_fin_eq_range f, show Finset.range 16384 = Finset.range (4 * 4096) from rfl,
    ← Cert.Spec.blockAcc_eq 4096 _ 4]
  simp only [Cert.Spec.blockAcc]
  rw [block_sum f 0 (by omega), block_sum f 1 (by omega), block_sum f 2 (by omega), block_sum f 3 (by omega)]

/-! ## The accumulator at the last point of a run -/

section Acc
variable (V : (c : Dev nD) → (b : Ref sig .tc) → Buf (Elt Ideal) ((c : Thread nD τ).loc b)) (c : Dev nD)

theorem acc1_step (n : ℕ) (hn : n + 1 < cfg1.N) (h : ¬(n + 1) % 4 = 0) :
    acc1 (F := Ideal) V c (n + 1) hn
      = k1_pay2 (acc1 V c n (Nat.lt_of_succ_lt hn)) (iblk1 V c 0 ⟨n + 1, hn⟩) (iblk1 V c 1 ⟨n + 1, hn⟩) :=
  acc1_next V c ⟨n + 1, hn⟩ h

theorem acc1_start (n : ℕ) (hn : n < cfg1.N) (h : n % 4 = 0) :
    acc1 (F := Ideal) V c n hn = k1_pay2 k1_pay1 (iblk1 V c 0 ⟨n, hn⟩) (iblk1 V c 1 ⟨n, hn⟩) :=
  acc1_first V c ⟨n, hn⟩ h

/-- At the last point 4u + 3 of a run the accumulator holds, at entry (r, q), zero plus the four points' products in
    point order. -/
theorem acc1_flush_apply (u : ℕ) (hu : 4 * u + 3 < cfg1.N) (r : Fin 256) (q : Fin 1024) :
    acc1 (F := Ideal) V c (4 * u + 3) hu (ix2 r q)
      = (((0 + rowDot1 (iblk1 (F := Ideal) V c 0 ⟨4 * u, by omega⟩) (iblk1 (F := Ideal) V c 1 ⟨4 * u, by omega⟩) r q)
          + rowDot1 (iblk1 (F := Ideal) V c 0 ⟨4 * u + 1, by omega⟩) (iblk1 (F := Ideal) V c 1 ⟨4 * u + 1, by omega⟩) r q)
          + rowDot1 (iblk1 (F := Ideal) V c 0 ⟨4 * u + 2, by omega⟩) (iblk1 (F := Ideal) V c 1 ⟨4 * u + 2, by omega⟩) r q)
          + rowDot1 (iblk1 (F := Ideal) V c 0 ⟨4 * u + 3, hu⟩) (iblk1 (F := Ideal) V c 1 ⟨4 * u + 3, hu⟩) r q := by
  have s3 : acc1 (F := Ideal) V c (4 * u + 3) hu
      = k1_pay2 (acc1 V c (4 * u + 2) (by omega)) (iblk1 V c 0 ⟨4 * u + 3, hu⟩) (iblk1 V c 1 ⟨4 * u + 3, hu⟩) :=
    acc1_step V c (4 * u + 2) hu (by omega)
  have s2 : acc1 (F := Ideal) V c (4 * u + 2) (by omega)
      = k1_pay2 (acc1 V c (4 * u + 1) (by omega)) (iblk1 V c 0 ⟨4 * u + 2, by omega⟩) (iblk1 V c 1 ⟨4 * u + 2, by omega⟩) :=
    acc1_step V c (4 * u + 1) (by omega) (by omega)
  have s1 : acc1 (F := Ideal) V c (4 * u + 1) (by omega)
      = k1_pay2 (acc1 V c (4 * u) (by omega)) (iblk1 V c 0 ⟨4 * u + 1, by omega⟩) (iblk1 V c 1 ⟨4 * u + 1, by omega⟩) :=
    acc1_step V c (4 * u) (by omega) (by omega)
  have s0 : acc1 (F := Ideal) V c (4 * u) (by omega)
      = k1_pay2 k1_pay1 (iblk1 V c 0 ⟨4 * u, by omega⟩) (iblk1 V c 1 ⟨4 * u, by omega⟩) :=
    acc1_start V c (4 * u) (by omega) (by omega)
  rw [s3, k1_pay2_apply, s2, k1_pay2_apply, s1, k1_pay2_apply, s0, k1_pay2_apply, k1_pay1_apply]

/-- One point's product at entry (r, q) is one block of 4096 terms of the full product of the features' row against
    the weights' row. -/
theorem rowDot1_eq (n : ℕ) (hn : n < cfg1.N) (s : ℕ) (hs : s < 4) (hns : n % 4 = s) (r : Fin 256) (q : Fin 1024)
    (P : Fin 1024) (O : Fin 4096) (hP : P.val = n / 16 * 256 + r.val) (hO : O.val = n / 4 % 4 * 1024 + q.val) :
    rowDot1 (iblk1 (F := Ideal) V c 0 ⟨n, hn⟩) (iblk1 (F := Ideal) V c 1 ⟨n, hn⟩) r q
      = ∑ kk : Fin 4096, linTerm1 (V c main_v0) (V c main_v2) P O ⟨s * 4096 + kk.val, lt16384 s hs kk⟩ := by
  unfold rowDot1 linTerm1
  refine Finset.sum_congr rfl fun kk _ => ?_
  exact congrArg₂ (fun x y : EReal => x * y)
    (iblk1_0_apply V c ⟨n, hn⟩ r kk P ⟨s * 4096 + kk.val, lt16384 s hs kk⟩ hP (by show s * 4096 + kk.val = n % 4 * 4096 + kk.val; rw [hns]))
    (iblk1_1_apply V c ⟨n, hn⟩ q kk O ⟨s * 4096 + kk.val, lt16384 s hs kk⟩ hO (by show s * 4096 + kk.val = n % 4 * 4096 + kk.val; rw [hns]))

/-- So at the last point of a run the accumulator holds the full product over the 16384 features. -/
theorem acc1_flush_eq (u : ℕ) (hu : 4 * u + 3 < cfg1.N) (r : Fin 256) (q : Fin 1024) (P : Fin 1024) (O : Fin 4096)
    (hP : P.val = (4 * u + 3) / 16 * 256 + r.val) (hO : O.val = (4 * u + 3) / 4 % 4 * 1024 + q.val) :
    acc1 (F := Ideal) V c (4 * u + 3) hu (ix2 r q) = ∑ k : Fin 16384, linTerm1 (V c main_v0) (V c main_v2) P O k := by
  rw [acc1_flush_apply, ← sum_four_blocks (linTerm1 (V c main_v0) (V c main_v2) P O)]
  rw [rowDot1_eq V c (4 * u) (by omega) 0 (by omega) (by omega) r q P O (by omega) (by omega),
    rowDot1_eq V c (4 * u + 1) (by omega) 1 (by omega) (by omega) r q P O (by omega) (by omega),
    rowDot1_eq V c (4 * u + 2) (by omega) 2 (by omega) (by omega) r q P O (by omega) (by omega),
    rowDot1_eq V c (4 * u + 3) hu 3 (by omega) (by omega) r q P O hP hO]

end Acc

/-! ## From the blocks to the array -/

section Array
variable (V : (c : Dev nD) → (b : Ref sig .tc) → Buf (Elt Ideal) ((c : Thread nD τ).loc b)) (c : Dev nD)

/-- The whole array the region leaves. -/
def G1 : S1024x4096.Idx → EReal :=
  fun j => lin1 (V c main_v0) (V c main_v2) (V c main_arg3) (V c main_v5) (j 0) (j 1)

/-- What a point that writes back writes is its block of that array. -/
theorem flushed1_eq (t : Fin cfg1.N) (hf : (cfg1.win 4).flush t = true) :
    (dat1 (F := Ideal) V c).flushed 4 t = ((cfg1.win 4).blk t).view.read (Elt Ideal) (G1 V c) := by
  have h3 : t.val % 4 = 3 := (flush1_4 t).mp hf
  have hN : cfg1.N = 64 := N_1
  obtain ⟨n, hn⟩ := t
  obtain ⟨u, rfl⟩ : ∃ u, n = 4 * u + 3 := ⟨n / 4, by have h3' : n % 4 = 3 := h3; omega⟩
  obtain ⟨-, -, -, -, -, -, -, e0, e1⟩ := idx_facts1 ⟨4 * u + 3, hn⟩
  show (cfg1.win 4).cut (grid1.coords ⟨4 * u + 3, hn⟩) ((dat1 (F := Ideal) V c).after 4 ⟨4 * u + 3, hn⟩) = _
  rw [after1_4]
  funext y
  obtain ⟨r, q, rfl⟩ : ∃ (r : Fin 256) (q : Fin 1024), y = ix2 r q := ⟨y 0, y 1, eq_ix2 (n0 := 256) (n1 := 1024) y⟩
  have hr := r.isLt
  have hq := q.isLt
  obtain ⟨P, hP⟩ : ∃ P : Fin 1024, P.val = (4 * u + 3) / 16 * 256 + r.val := ⟨⟨(4 * u + 3) / 16 * 256 + r.val, by omega⟩, rfl⟩
  obtain ⟨O, hO⟩ : ∃ O : Fin 4096, O.val = (4 * u + 3) / 4 % 4 * 1024 + q.val := ⟨⟨(4 * u + 3) / 4 % 4 * 1024 + q.val, by omega⟩, rfl⟩
  have hemb : ((cfg1.win 4).blk ⟨4 * u + 3, hn⟩).view.emb (ix2 r q) = ix2 P O := by
    funext a; apply Fin.ext
    match a with
    | ⟨0, _⟩ => show win1_4.index ⟨4 * u + 3, hn⟩ (0 : Fin 2) * 256 + 1 * r.val = P.val; rw [e0, hP]; show (4 * u + 3) / 16 * 256 + 1 * r.val = _; omega
    | ⟨1, _⟩ => show win1_4.index ⟨4 * u + 3, hn⟩ (1 : Fin 2) * 1024 + 1 * q.val = O.val; rw [e1, hO]; show (4 * u + 3) / 4 % 4 * 1024 + 1 * q.val = _; omega
  show k1_pay3 (acc1 (F := Ideal) V c (4 * u + 3) hn) (iblk1 V c 2 ⟨4 * u + 3, hn⟩) (iblk1 V c 3 ⟨4 * u + 3, hn⟩) (ix2 r q)
    = G1 V c (((cfg1.win 4).blk ⟨4 * u + 3, hn⟩).view.emb (ix2 r q))
  rw [hemb, k1_pay3_apply, acc1_flush_eq V c u hn r q P O hP hO, iblk1_2_apply V c ⟨4 * u + 3, hn⟩ q O hO,
    iblk1_3_apply V c ⟨4 * u + 3, hn⟩ r q P O hP hO]
  rfl

/-- Every entry (p, o) of the array is in the block written at the last point of run (p / 256, o / 1024). -/
theorem cover1 (i : S1024x4096.Idx) :
    ∃ t : Fin cfg1.N, (cfg1.win 4).flush t = true ∧ i ∈ ((cfg1.win 4).blk t).view.set := by
  have hN : cfg1.N = 64 := N_1
  have h0 : (i 0).val < 1024 := (i 0).isLt
  have h1 : (i 1).val < 4096 := (i 1).isLt
  obtain ⟨t, ht⟩ : ∃ t : Fin cfg1.N, t.val = ((i 0).val / 256 * 4 + (i 1).val / 1024) * 4 + 3 :=
    ⟨⟨((i 0).val / 256 * 4 + (i 1).val / 1024) * 4 + 3, by omega⟩, rfl⟩
  obtain ⟨-, -, -, -, -, -, -, e0, e1⟩ := idx_facts1 t
  refine ⟨t, (flush1_4 t).mpr (by omega), ?_⟩
  show i ∈ ((View.whole main_v6).slice (win1_4.rect t)).set
  rw [View.set_slice_whole, Rect.mem_set_unit]
  intro a
  match a with
  | ⟨0, _⟩ => show win1_4.index t (0 : Fin 2) * 256 ≤ (i 0).val ∧ (i 0).val < win1_4.index t (0 : Fin 2) * 256 + 256; rw [e0]; omega
  | ⟨1, _⟩ => show win1_4.index t (1 : Fin 2) * 1024 ≤ (i 1).val ∧ (i 1).val < win1_4.index t (1 : Fin 2) * 1024 + 1024; rw [e1]; omega

end Array

/-- After the region's last point its output array holds, at entry (p, o), the features' row p against the linear
    weights' row o over all 16384 features, plus the bias at o, plus the interaction term at (p, o). -/
theorem final1 (V : (c : Dev nD) → (b : Ref sig .tc) → Buf (Elt Ideal) ((c : Thread nD τ).loc b)) (c : Dev nD) (p : Fin 1024) (o : Fin 4096) :
    (dat1 (F := Ideal) V c).arrAt 4 cfg1.N (ix2 p o) = lin1 (V c main_v0) (V c main_v2) (V c main_arg3) (V c main_v5) p o :=
  congrFun ((dat1 (F := Ideal) V c).arrAt_eq_of_cover 4 (G1 V c) (flushed1_eq V c) cover1) (ix2 p o)

end Cert.KernelIdeal.Hand
end
-- ==== Proof.KI.Final.lean ====
import proofs.«126562_j4071628997276_1_alg».proof.Proof.KI.Entry
import proofs.«126562_j4071628997276_1_alg».proof.Proof.KI.Value0
import proofs.«126562_j4071628997276_1_alg».proof.Proof.KI.Value1
import proofs.«126562_j4071628997276_1_alg».proof.Proof.Spec

/-!
  # The idealized kernel program's result is the specification

  The result array is what the second region's write-backs leave: at entry (p, o) the features' row p against the
  linear weights' row o, plus the linear bias, plus the entry (p, o) of the array the first region wrote, which is
  the interaction perceptron of the converted operands. The converted operands are the arguments, so the entry is
  `Cert.Spec.G` of the eight argument arrays.
-/

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem kernel_is_G (c : Dev nD) (p : Fin 1024) (o : Fin 4096) :
    (dat1 (F := Ideal) (V2 m ρ) c).arrAt 4 cfg1.N (ix2 p o)
      = Cert.Spec.G (fun p k => m ((c : Thread nD τ).loc main_arg0) (ix2 p k)) (fun k d => m ((c : Thread nD τ).loc main_arg1) (ix2 k d))
          (fun o k => m ((c : Thread nD τ).loc main_arg2) (ix2 o k)) (fun o => m ((c : Thread nD τ).loc main_arg3) (ix1 o))
          (fun j i => m ((c : Thread nD τ).loc main_arg4) (ix2 j i)) (fun j => m ((c : Thread nD τ).loc main_arg5) (ix1 j))
          (fun o i => m ((c : Thread nD τ).loc main_arg6) (ix2 o i)) (fun o => m ((c : Thread nD τ).loc main_arg7) (ix1 o)) p o := by
  rw [final1]
  unfold lin1
  rw [V2_main_v0, V2_main_v2, V2_main_arg3, V2_main_v5, final0, V1_main_v0, V1_main_v1, V1_main_v3, V1_main_arg5, V1_main_v4, V1_main_arg7]
  rfl

end Cert.KernelIdeal.Hand

end
-- ==== Proof.RefSpec.lean ====
import proofs.«126562_j4071628997276_1_alg».proof.Proof.Gen.ReferenceIdeal.Read
import proofs.«126562_j4071628997276_1_alg».proof.Proof.Spec

/-!
  The reference program's result, read at an output index (p, o), is the layer G of the eight argument arrays read at
  their coordinates.

  Each operation of the reference is read at an index from its operands at an index; the composed index functions are
  identified, at an index built from its coordinates, with the index built from the coordinates they select; and at the
  extended reals the elementwise operations are the field operations, so each stage of the reference is the stage of the
  layer of the same name: the interaction, the hidden layer, the second perceptron layer, the linear term, and their sum.
-/

open scoped BigOperators

namespace Cert.ReferenceIdeal.RefSpec

open Cert.ReferenceIdeal Idealize.ShloMosaic Idealize.ShloMosaic.ValueIdx

section

variable (x0 : (⟨S1024x16384, .f32⟩ : BufTy).Contents (Elt Ideal)) (x1 : (⟨S16384x512, .f32⟩ : BufTy).Contents (Elt Ideal))
  (x2 : (⟨S4096x16384, .f32⟩ : BufTy).Contents (Elt Ideal)) (x3 : (⟨S4096, .f32⟩ : BufTy).Contents (Elt Ideal))
  (x4 : (⟨S512x512, .f32⟩ : BufTy).Contents (Elt Ideal)) (x5 : (⟨S512, .f32⟩ : BufTy).Contents (Elt Ideal))
  (x6 : (⟨S4096x512, .f32⟩ : BufTy).Contents (Elt Ideal)) (x7 : (⟨S4096, .f32⟩ : BufTy).Contents (Elt Ideal))

/-! ## The index functions at an index built from its coordinates -/

private theorem lidx0 (p : Fin 1024) (d : Fin 512) (k : Fin 16384) : Read.lidx_main_v0 (ix2 p d) k = ix2 p k :=
  funext fun a => by match a with | ⟨0, _⟩ => rfl | ⟨1, _⟩ => rfl
private theorem ridx0 (p : Fin 1024) (d : Fin 512) (k : Fin 16384) : Read.ridx_main_v0 (ix2 p d) k = ix2 k d :=
  funext fun a => by match a with | ⟨0, _⟩ => rfl | ⟨1, _⟩ => rfl
private theorem lidx3 (p : Fin 1024) (d : Fin 512) (k : Fin 16384) : Read.lidx_main_v3 (ix2 p d) k = ix2 p k :=
  funext fun a => by match a with | ⟨0, _⟩ => rfl | ⟨1, _⟩ => rfl
private theorem ridx3 (p : Fin 1024) (d : Fin 512) (k : Fin 16384) : Read.ridx_main_v3 (ix2 p d) k = ix2 k d :=
  funext fun a => by match a with | ⟨0, _⟩ => rfl | ⟨1, _⟩ => rfl

private theorem lidx9 (p : Fin 1024) (j : Fin 512) (k : Fin 512) : Read.lidx_main_v9 (ix2 p j) k = ix2 p k :=
  funext fun a => by match a with | ⟨0, _⟩ => rfl | ⟨1, _⟩ => rfl
private theorem ridx9 (p : Fin 1024) (j : Fin 512) (k : Fin 512) : Read.ridx_main_v9 (ix2 p j) k = ix2 k j :=
  funext fun a => by match a with | ⟨0, _⟩ => rfl | ⟨1, _⟩ => rfl
private theorem idx8 (a b : Fin 512) : Read.idx_main_v8 (ix2 a b) = ix2 b a :=
  funext fun c => by match c with | ⟨0, _⟩ => rfl | ⟨1, _⟩ => rfl
private theorem idx11 (p : Fin 1024) (j : Fin 512) : Read.idx_main_v11 (ix2 p j) = ix2 (⟨0, Nat.one_pos⟩ : Fin 1) j :=
  funext fun c => by match c with | ⟨0, _⟩ => rfl | ⟨1, _⟩ => rfl
private theorem idx10 (a : Fin 1) (j : Fin 512) : Read.idx_main_v10 (ix2 a j) = ix1 j :=
  funext fun c => by match c with | ⟨0, _⟩ => rfl
private theorem lidx15 (p : Fin 1024) (o : Fin 4096) (k : Fin 512) : Read.lidx_main_v15 (ix2 p o) k = ix2 p k :=
  funext fun a => by match a with | ⟨0, _⟩ => rfl | ⟨1, _⟩ => rfl
private theorem ridx15 (p : Fin 1024) (o : Fin 4096) (k : Fin 512) : Read.ridx_main_v15 (ix2 p o) k = ix2 k o :=
  funext fun a => by match a with | ⟨0, _⟩ => rfl | ⟨1, _⟩ => rfl
private theorem idx14 (a : Fin 512) (b : Fin 4096) : Read.idx_main_v14 (ix2 a b) = ix2 b a :=
  funext fun c => by match c with | ⟨0, _⟩ => rfl | ⟨1, _⟩ => rfl
private theorem idx17 (p : Fin 1024) (o : Fin 4096) : Read.idx_main_v17 (ix2 p o) = ix2 (⟨0, Nat.one_pos⟩ : Fin 1) o :=
  funext fun c => by match c with | ⟨0, _⟩ => rfl | ⟨1, _⟩ => rfl
private theorem idx16 (a : Fin 1) (o : Fin 4096) : Read.idx_main_v16 (ix2 a o) = ix1 o :=
  funext fun c => by match c with | ⟨0, _⟩ => rfl
private theorem lidx20 (p : Fin 1024) (o : Fin 4096) (k : Fin 16384) : Read.lidx_main_v20 (ix2 p o) k = ix2 p k :=
  funext fun a => by match a with | ⟨0, _⟩ => rfl | ⟨1, _⟩ => rfl
private theorem ridx20 (p : Fin 1024) (o : Fin 4096) (k : Fin 16384) : Read.ridx_main_v20 (ix2 p o) k = ix2 k o :=
  funext fun a => by match a with | ⟨0, _⟩ => rfl | ⟨1, _⟩ => rfl
private theorem idx19 (a : Fin 16384) (b : Fin 4096) : Read.idx_main_v19 (ix2 a b) = ix2 b a :=
  funext fun c => by match c with | ⟨0, _⟩ => rfl | ⟨1, _⟩ => rfl
private theorem idx22 (p : Fin 1024) (o : Fin 4096) : Read.idx_main_v22 (ix2 p o) = ix2 (⟨0, Nat.one_pos⟩ : Fin 1) o :=
  funext fun c => by match c with | ⟨0, _⟩ => rfl | ⟨1, _⟩ => rfl
private theorem idx21 (a : Fin 1) (o : Fin 4096) : Read.idx_main_v21 (ix2 a o) = ix1 o :=
  funext fun c => by match c with | ⟨0, _⟩ => rfl

/-- The interaction stage: half the square of the sum less the sum of the squares. -/
private theorem v7_eq (p : Fin 1024) (d : Fin 512) :
    Read.val_main_v7 (F := Ideal) x0 x1 (ix2 p d)
      = Cert.Spec.inter (fun p k => x0 (ix2 p k)) (fun k d => x1 (ix2 k d)) p d := by
  rw [Read.val_main_v7_apply, Read.val_main_v6_apply, Read.val_main_cst_apply, Read.val_main_v5_apply,
    Read.val_main_v4_apply, Read.val_main_v0_apply, Read.val_main_v3_apply]
  simp only [Read.val_main_v1_apply, Read.val_main_v2_apply, lidx0, ridx0, lidx3, ridx3,
    Ideal.mulf_def, Ideal.subf_def, Ideal.ofBits_def]
  rfl

/-- The hidden layer: the first perceptron layer over the interaction, rectified. -/
private theorem v13_eq (p : Fin 1024) (j : Fin 512) :
    Read.val_main_v13 (F := Ideal) x0 x1 x4 x5 (ix2 p j)
      = Cert.Spec.hidden (fun p k => x0 (ix2 p k)) (fun k d => x1 (ix2 k d)) (fun j i => x4 (ix2 j i))
          (fun j => x5 (ix1 j)) p j := by
  rw [Read.val_main_v13_apply, Read.val_main_call0_v0_apply, Read.val_main_call0_cst_apply, Read.val_main_v12_apply,
    Read.val_main_v11_apply, Read.val_main_v10_apply, Read.val_main_v9_apply]
  simp only [Read.val_main_v8_apply, lidx9, ridx9, idx8, idx11, idx10, v7_eq,
    Ideal.addf_def, Ideal.maximumf_def, Ideal.ofBits_def, Ideal.ofBits_zero_f32]
  rfl

/-- The second perceptron layer over the hidden layer. -/
private theorem v18_eq (p : Fin 1024) (o : Fin 4096) :
    Read.val_main_v18 (F := Ideal) x0 x1 x4 x5 x6 x7 (ix2 p o)
      = Cert.Spec.interOut (fun p k => x0 (ix2 p k)) (fun k d => x1 (ix2 k d)) (fun j i => x4 (ix2 j i))
          (fun j => x5 (ix1 j)) (fun o i => x6 (ix2 o i)) (fun o => x7 (ix1 o)) p o := by
  rw [Read.val_main_v18_apply, Read.val_main_v17_apply, Read.val_main_v16_apply, Read.val_main_v15_apply]
  simp only [Read.val_main_v14_apply, lidx15, ridx15, idx14, idx17, idx16, v13_eq, Ideal.addf_def]
  rfl

/-- The linear term. -/
private theorem v23_eq (p : Fin 1024) (o : Fin 4096) :
    Read.val_main_v23 (F := Ideal) x0 x2 x3 (ix2 p o)
      = Cert.Spec.linear (fun p k => x0 (ix2 p k)) (fun o k => x2 (ix2 o k)) (fun o => x3 (ix1 o)) p o := by
  rw [Read.val_main_v23_apply, Read.val_main_v22_apply, Read.val_main_v21_apply, Read.val_main_v20_apply]
  simp only [Read.val_main_v19_apply, lidx20, ridx20, idx19, idx22, idx21, Ideal.addf_def]
  rfl

end

/-- The reference's result at (p, o) is the layer's result there. -/
theorem ref_is_G (x0 : (⟨S1024x16384, .f32⟩ : BufTy).Contents (Elt Ideal)) (x1 : (⟨S16384x512, .f32⟩ : BufTy).Contents (Elt Ideal))
    (x2 : (⟨S4096x16384, .f32⟩ : BufTy).Contents (Elt Ideal)) (x3 : (⟨S4096, .f32⟩ : BufTy).Contents (Elt Ideal))
    (x4 : (⟨S512x512, .f32⟩ : BufTy).Contents (Elt Ideal)) (x5 : (⟨S512, .f32⟩ : BufTy).Contents (Elt Ideal))
    (x6 : (⟨S4096x512, .f32⟩ : BufTy).Contents (Elt Ideal)) (x7 : (⟨S4096, .f32⟩ : BufTy).Contents (Elt Ideal))
    (p : Fin 1024) (o : Fin 4096) :
    Cert.ReferenceIdeal.Read.val_main_v24 (F := Ideal) x0 x1 x2 x3 x4 x5 x6 x7 (ix2 p o)
      = Cert.Spec.G (fun p k => x0 (ix2 p k)) (fun k d => x1 (ix2 k d)) (fun o k => x2 (ix2 o k)) (fun o => x3 (ix1 o))
          (fun j i => x4 (ix2 j i)) (fun j => x5 (ix1 j)) (fun o i => x6 (ix2 o i)) (fun o => x7 (ix1 o)) p o := by
  rw [Read.val_main_v24_apply, v23_eq, v18_eq, Ideal.addf_def]
  rfl

end Cert.ReferenceIdeal.RefSpec
-- ==== Proof.lean ====
/-
  A factorization-machine layer — the pairwise interaction of a row's active features through their embeddings, a
  two-layer perceptron on it, and a linear term — computed by two kernels against one plain array program.

  The kernels work block by block: the first accumulates, over eight blocks of 2048 features, the features times the
  embeddings and the same with both squared, and on the last block forms half of (square of the sum less the sum of
  squares), sends it through the two perceptron layers and writes the block; the second accumulates the features
  times the transposed linear weights over four blocks of 4096 features and on the last block adds the bias and the
  first kernel's block. The reference takes each product whole. At the ideal instance a float is an extended real,
  a change of storage format is the identity and a matrix product into a zero accumulator is a plain sum; both sides
  are then the one function `Cert.Spec.G` of the eight argument arrays, because a sum taken block by block from zero
  is the whole sum (addition on the extended reals is associative and commutative, zero is neutral: no finiteness of
  the inputs is used).

  The frames of the two kernel programs come from one run of @main as three segments (the host conversions and the
  two kernel regions, each region's invariant carrying its scratch accumulators from a grid point to the next); the
  reference's frame is its run with the result dropped; nothing was rewritten by the idealization, so `preserves` is
  trivial.
-/
import proofs.«126562_j4071628997276_1_alg».proof.Defs
import proofs.«126562_j4071628997276_1_alg».proof.Proof.Gen.Kernel
import proofs.«126562_j4071628997276_1_alg».proof.Proof.Gen.KernelIdeal
import proofs.«126562_j4071628997276_1_alg».proof.Proof.Gen.ReferenceIdeal
import proofs.«126562_j4071628997276_1_alg».proof.Proof.Gen.Pre_finite_inputs
import proofs.«126562_j4071628997276_1_alg».proof.Proof.Gen.ReferenceIdeal.Run
import proofs.«126562_j4071628997276_1_alg».proof.Proof.Gen.ReferenceIdeal.Read
import proofs.«126562_j4071628997276_1_alg».proof.Proof.K.Run
import proofs.«126562_j4071628997276_1_alg».proof.Proof.KI.Final
import proofs.«126562_j4071628997276_1_alg».proof.Proof.RefSpec
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result array at the specification of the arguments, which agree. -/
theorem algebraic : Cert.algebraic_KernelIdeal_ReferenceIdeal := by
  intro m ρ m' ρ' _ hagree
  refine ⟨fun c => (Cert.KernelIdeal.Hand.dat1 (F := Ideal) (Cert.KernelIdeal.Hand.V2 m ρ) c).arrAt 4 Cert.KernelIdeal.cfg1.N,
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v24_eq (F := Ideal) _ _ _ _ _ _ _ _).trans ?_
  funext j
  obtain ⟨p, o, rfl⟩ : ∃ (p : Fin 1024) (o : Fin 4096), j = ix2 p o := ⟨j 0, j 1, eq_ix2 j⟩
  beta_reduce
  rw [Cert.ReferenceIdeal.RefSpec.ref_is_G, Cert.KernelIdeal.Hand.kernel_is_G m ρ c p o,
    (hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
